-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1 : Shape := ⟨3, ![8, 2048, 1]⟩
abbrev S8x2048x128 : Shape := ⟨3, ![8, 2048, 128]⟩
abbrev S8x2048x2048 : Shape := ⟨3, ![8, 2048, 2048]⟩
abbrev S_ : Shape := ⟨0, ![]⟩

class Facts : Prop where
  bcast_S_S8x2048x1 : S_.BroadcastsInDim S8x2048x1 (![] : Fin 0 → Fin S8x2048x1.rank)
  reducesTo_S8x2048x1_S_d0_1_2 : S8x2048x1.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8x2048x1 .f32) (main_arg1 : FVec F S8x2048x128 .f32) (main_arg2 : FVec F S8x2048x2048 .f32) : IVec S_ 1 :=
  let main_v0 : FVec F S8x2048x1 .f32 := Host.absf main_arg0
  let main_cst : FVec F S_ .f32 := constant S_ .f32 0x7F800000#32
  let main_v1 : FVec F S8x2048x1 .f32 := broadcastInDim S8x2048x1 ![] bcast_S_S8x2048x1 main_cst
  let main_v2 : IVec S8x2048x1 1 := cmpf .olt main_v0 main_v1
  let main_c : IVec S_ 1 := constantI S_ 1 1#1
  let main_v3 : IVec S_ 1 := (fun x v => Host.reduce IntOp.andi x v reducesTo_S8x2048x1_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  main_v13
-- ==== Kernel.lean ====
abbrev S8x2048x1 : Shape := ⟨3, ![8, 2048, 1]⟩
abbrev S8x2048x128 : Shape := ⟨3, ![8, 2048, 128]⟩
abbrev S8x2048x2048 : Shape := ⟨3, ![8, 2048, 2048]⟩
abbrev S8x2048 : Shape := ⟨2, ![8, 2048]⟩
abbrev S8x1x2048 : Shape := ⟨3, ![8, 1, 2048]⟩
abbrev S8x2048x3 : Shape := ⟨3, ![8, 2048, 3]⟩
abbrev S1x512x2048 : Shape := ⟨3, ![1, 512, 2048]⟩
abbrev S1x1x2048 : Shape := ⟨3, ![1, 1, 2048]⟩
abbrev S1x2048x128 : Shape := ⟨3, ![1, 2048, 128]⟩
abbrev S1x512x128 : Shape := ⟨3, ![1, 512, 128]⟩
abbrev S1x512x3 : Shape := ⟨3, ![1, 512, 3]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S2048x128 : Shape := ⟨2, ![2048, 128]⟩
abbrev S512x128 : Shape := ⟨2, ![512, 128]⟩
abbrev S1x512x1 : Shape := ⟨3, ![1, 512, 1]⟩
abbrev S8x2044 : Shape := ⟨2, ![8, 2044]⟩
abbrev S_ : Shape := ⟨0, ![]⟩

abbrev nBuf : Space → Nat
  | .hbm => 57
  | .vmem => 10
  | .smem => 0
  | _ => 0

abbrev bufTy : (tb : Table) → Fin (tcTables nBuf tb) → BufTy
  | .hbm, ⟨0, _⟩ => ⟨S8x2048x1, .f32⟩
  | .hbm, ⟨1, _⟩ => ⟨S8x2048x128, .f32⟩
  | .hbm, ⟨2, _⟩ => ⟨S8x2048x2048, .f32⟩
  | .hbm, ⟨3, _⟩ => ⟨S8x2048, .f32⟩
  | .hbm, ⟨4, _⟩ => ⟨S8x1x2048, .f32⟩
  | .hbm, ⟨5, _⟩ => ⟨S8x2048x128, .f32⟩
  | .hbm, ⟨6, _⟩ => ⟨S8x2048x3, .f32⟩
  | .hbm, ⟨7, _⟩ => ⟨S8x2048x1, .f32⟩
  | .hbm, ⟨8, _⟩ => ⟨S8x2048, .f32⟩
  | .hbm, ⟨9, _⟩ => ⟨S8x2048x1, .f32⟩
  | .hbm, ⟨10, _⟩ => ⟨S8x2048, .f32⟩
  | .hbm, ⟨11, _⟩ => ⟨S8x2048x1, .f32⟩
  | .hbm, ⟨12, _⟩ => ⟨S8x2048, .f32⟩
  | .hbm, ⟨13, _⟩ => ⟨S8x2044, .f32⟩
  | .hbm, ⟨14, _⟩ => ⟨S8x2044, .f32⟩
  | .hbm, ⟨15, _⟩ => ⟨S8x2044, .f32⟩
  | .hbm, ⟨16, _⟩ => ⟨S8x2044, .f32⟩
  | .hbm, ⟨17, _⟩ => ⟨S8x2044, .f32⟩
  | .hbm, ⟨18, _⟩ => ⟨S8x2044, .f32⟩
  | .hbm, ⟨19, _⟩ => ⟨S8x2044, .f32⟩
  | .hbm, ⟨20, _⟩ => ⟨S8x2044, .f32⟩
  | .hbm, ⟨21, _⟩ => ⟨S8x2044, .f32⟩
  | .hbm, ⟨22, _⟩ => ⟨S8x2044, .f32⟩
  | .hbm, ⟨23, _⟩ => ⟨S8x2044, .f32⟩
  | .hbm, ⟨24, _⟩ => ⟨S8x2044, .f32⟩
  | .hbm, ⟨25, _⟩ => ⟨S8x2044, .f32⟩
  | .hbm, ⟨26, _⟩ => ⟨S8x2044, .f32⟩
  | .hbm, ⟨27, _⟩ => ⟨S8x2044, .f32⟩
  | .hbm, ⟨28, _⟩ => ⟨S8x2044, .f32⟩
  | .hbm, ⟨29, _⟩ => ⟨S8x2044, .f32⟩
  | .hbm, ⟨30, _⟩ => ⟨S8x2044, .f32⟩
  | .hbm, ⟨31, _⟩ => ⟨S8x2044, .f32⟩
  | .hbm, ⟨32, _⟩ => ⟨S8x2044, .f32⟩
  | .hbm, ⟨33, _⟩ => ⟨S8x2044, .f32⟩
  | .hbm, ⟨34, _⟩ => ⟨S8x2044, .f32⟩
  | .hbm, ⟨35, _⟩ => ⟨S8x2044, .f32⟩
  | .hbm, ⟨36, _⟩ => ⟨S8x2044, .f32⟩
  | .hbm, ⟨37, _⟩ => ⟨S8x2044, .f32⟩
  | .hbm, ⟨38, _⟩ => ⟨S8x2044, .f32⟩
  | .hbm, ⟨39, _⟩ => ⟨S8x2044, .f32⟩
  | .hbm, ⟨40, _⟩ => ⟨S8x2044, .f32⟩
  | .hbm, ⟨41, _⟩ => ⟨S_, .f32⟩
  | .hbm, ⟨42, _⟩ => ⟨S8x2044, .f32⟩
  | .hbm, ⟨43, _⟩ => ⟨S8x2044, .f32⟩
  | .hbm, ⟨44, _⟩ => ⟨S8x2044, .f32⟩
  | .hbm, ⟨45, _⟩ => ⟨S_, .f32⟩
  | .hbm, ⟨46, _⟩ => ⟨S8x2044, .f32⟩
  | .hbm, ⟨47, _⟩ => ⟨S8x2044, .f32⟩
  | .hbm, ⟨48, _⟩ => ⟨S8x2044, .f32⟩
  | .hbm, ⟨49, _⟩ => ⟨S8x2044, .f32⟩
  | .hbm, ⟨50, _⟩ => ⟨S_, .f32⟩
  | .hbm, ⟨51, _⟩ => ⟨S8x2044, .f32⟩
  | .hbm, ⟨52, _⟩ => ⟨S8x2044, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | .local _ .vmem, ⟨8, _⟩ => ⟨S1x512x3, .f32⟩
  | .local _ .vmem, ⟨9, _⟩ => ⟨S1x512x3, .f32⟩
  | _, _ => ⟨S8x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_0 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_1 : Ref sig .tc := ⟨.hbm, 50, rfl⟩
abbrev main_v44 : Ref sig .tc := ⟨.hbm, 51, rfl⟩
abbrev main_v45 : Ref sig .tc := ⟨.hbm, 52, rfl⟩
abbrev main_cst_2 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v25 : BitVec 32 := Scalar.muli arg1 c512_i32
  v25
def k0_off1 (i : grid0.Coords) : Fin 3 → Nat :=
  let c0_14 : Index := 0#32
  let arg1 : BitVec 32 := BitVec.ofNat 32 (i 1).val
  let c512_i32 : BitVec 32 := 512#32
  let v25 : BitVec 32 := Scalar.muli arg1 c512_i32
  let v26 : BitVec 32 := v25
  let v27 : Index := Scalar.indexCast v26
  let c0_15 : Index := 0#32
  ![0, v27.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x2048x1_S8x2048 : S8x2048x1.ShapeCasts S8x2048
  shapeCasts_S8x2048_S8x1x2048 : S8x2048.ShapeCasts S8x1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  broadcasts_S512x1_S512x128 : S512x1.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  reduces_S512x128_S512 : S512x128.Reduces [1] S512
  inb_S1x512x3_S1x512x1_0_0_0 : ∀ a, (![0, 0, 0] : Fin 3 → Nat) a + S1x512x1.size a ≤ S1x512x3.size a
  h_S1x512x1 : 0 < S1x512x1.numel
  shapeCasts_S1x512x1_S512x1 : S1x512x1.ShapeCasts S512x1
  shapeCasts_S512x1_S1x512x1 : S512x1.ShapeCasts S1x512x1
  inb_S1x512x3_S1x512x1_0_0_1 : ∀ a, (![0, 0, 1] : Fin 3 → Nat) a + S1x512x1.size a ≤ S1x512x3.size a
  inb_S1x512x3_S1x512x1_0_0_2 : ∀ a, (![0, 0, 2] : Fin 3 → Nat) a + S1x512x1.size a ≤ S1x512x3.size a
  slices_S8x2048x3_S8x2048x1_0_0_0 : S8x2048x3.Slices ![0, 0, 0] S8x2048x1
  slices_S8x2048x3_S8x2048x1_0_0_1 : S8x2048x3.Slices ![0, 0, 1] S8x2048x1
  slices_S8x2048x3_S8x2048x1_0_0_2 : S8x2048x3.Slices ![0, 0, 2] S8x2048x1
  slices_S8x2048_S8x2044_0_0 : S8x2048.Slices ![0, 0] S8x2044
  slices_S8x2048_S8x2044_0_1 : S8x2048.Slices ![0, 1] S8x2044
  slices_S8x2048_S8x2044_0_2 : S8x2048.Slices ![0, 2] S8x2044
  slices_S8x2048_S8x2044_0_3 : S8x2048.Slices ![0, 3] S8x2044
  slices_S8x2048_S8x2044_0_4 : S8x2048.Slices ![0, 4] S8x2044
  bcast_S_S8x2044 : S_.BroadcastsInDim S8x2044 (![] : Fin 0 → Fin S8x2044.rank)
  reducesTo_S8x2044_S_d0_1 : S8x2044.ReducesTo [0, 1] S_
  h_S_ : 0 < S_.numel
  dot_S512x2048_S2048x128_S512x128_1_0_0_1_n_n_wf : DotDims.WF S512x2048 S2048x128 S512x128 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S8x1x2048.size a
  hwx0_1 : ∀ i : grid0.Coords, EltTy.bits .f32 = 32 ∨ (Rect.block (s := S8x1x2048) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S8x2048x128.size a
  hwx0_3 : ∀ i : grid0.Coords, EltTy.bits .f32 = 32 ∨ (Rect.block (s := S8x2048x128) S1x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x3.size a ≤ S8x2048x3.size a
  hwx0_4 : ∀ i : grid0.Coords, EltTy.bits .f32 = 32 ∨ (Rect.block (s := S8x2048x3) S1x512x3.size (cc0_transform_4 i) (hinb0_4 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg2) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x512x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1 : Shape := ⟨3, ![8, 2048, 1]⟩
abbrev S8x2048x128 : Shape := ⟨3, ![8, 2048, 128]⟩
abbrev S8x2048x2048 : Shape := ⟨3, ![8, 2048, 2048]⟩
abbrev S8x2048 : Shape := ⟨2, ![8, 2048]⟩
abbrev S8x1x2048 : Shape := ⟨3, ![8, 1, 2048]⟩
abbrev S_ : Shape := ⟨0, ![]⟩
abbrev S2044 : Shape := ⟨1, ![2044]⟩
abbrev S2044x1 : Shape := ⟨2, ![2044, 1]⟩
abbrev S5 : Shape := ⟨1, ![5]⟩
abbrev S1x5 : Shape := ⟨2, ![1, 5]⟩
abbrev S2044x5 : Shape := ⟨2, ![2044, 5]⟩
abbrev S2044x5x1 : Shape := ⟨3, ![2044, 5, 1]⟩
abbrev S8x2044x5x128 : Shape := ⟨4, ![8, 2044, 5, 128]⟩
abbrev S8x2044x640 : Shape := ⟨3, ![8, 2044, 640]⟩
abbrev S8x2044 : Shape := ⟨2, ![8, 2044]⟩
abbrev S8x2044x1 : Shape := ⟨3, ![8, 2044, 1]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x1, .f32⟩
  | .hbm, ⟨1, _⟩ => ⟨S8x2048x128, .f32⟩
  | .hbm, ⟨2, _⟩ => ⟨S8x2048x2048, .f32⟩
  | .hbm, ⟨3, _⟩ => ⟨S8x2048, .f32⟩
  | .hbm, ⟨4, _⟩ => ⟨S8x1x2048, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x128, .f32⟩
  | .hbm, ⟨22, _⟩ => ⟨S2044, .i32⟩
  | .hbm, ⟨23, _⟩ => ⟨S2044x1, .i32⟩
  | .hbm, ⟨24, _⟩ => ⟨S5, .i32⟩
  | .hbm, ⟨25, _⟩ => ⟨S1x5, .i32⟩
  | .hbm, ⟨26, _⟩ => ⟨S2044x5, .i32⟩
  | .hbm, ⟨27, _⟩ => ⟨S2044x5, .i32⟩
  | .hbm, ⟨28, _⟩ => ⟨S2044x5, .i32⟩
  | .hbm, ⟨29, _⟩ => ⟨S_, .i32⟩
  | .hbm, ⟨30, _⟩ => ⟨S2044x5, .i32⟩
  | .hbm, ⟨31, _⟩ => ⟨S2044x5, .i1⟩
  | .hbm, ⟨32, _⟩ => ⟨S_, .i32⟩
  | .hbm, ⟨33, _⟩ => ⟨S2044x5, .i32⟩
  | .hbm, ⟨34, _⟩ => ⟨S2044x5, .i32⟩
  | .hbm, ⟨35, _⟩ => ⟨S2044x5, .i32⟩
  | .hbm, ⟨36, _⟩ => ⟨S2044x5x1, .i32⟩
  | .hbm, ⟨37, _⟩ => ⟨S8x2044x5x128, .f32⟩
  | .hbm, ⟨38, _⟩ => ⟨S8x2044x640, .f32⟩
  | .hbm, ⟨39, _⟩ => ⟨S_, .i32⟩
  | .hbm, ⟨40, _⟩ => ⟨S2044x5, .i32⟩
  | .hbm, ⟨41, _⟩ => ⟨S2044x5, .i1⟩
  | .hbm, ⟨42, _⟩ => ⟨S_, .i32⟩
  | .hbm, ⟨43, _⟩ => ⟨S2044x5, .i32⟩
  | .hbm, ⟨44, _⟩ => ⟨S2044x5, .i32⟩
  | .hbm, ⟨45, _⟩ => ⟨S2044x5, .i32⟩
  | .hbm, ⟨46, _⟩ => ⟨S2044x5x1, .i32⟩
  | .hbm, ⟨47, _⟩ => ⟨S8x2044x5x128, .f32⟩
  | .hbm, ⟨48, _⟩ => ⟨S8x2044x640, .f32⟩
  | .hbm, ⟨49, _⟩ => ⟨S8x2044x640, .f32⟩
  | .hbm, ⟨50, _⟩ => ⟨S_, .f32⟩
  | .hbm, ⟨51, _⟩ => ⟨S8x2044, .f32⟩
  | .hbm, ⟨52, _⟩ => ⟨S8x2044x1, .f32⟩
  | .hbm, ⟨53, _⟩ => ⟨S8x2044x1, .f32⟩
  | .hbm, ⟨54, _⟩ => ⟨S_, .f32⟩
  | .hbm, ⟨55, _⟩ => ⟨S8x2044x1, .f32⟩
  | .hbm, ⟨56, _⟩ => ⟨S8x2044x1, .f32⟩
  | .hbm, ⟨57, _⟩ => ⟨S8x2044x640, .f32⟩
  | .hbm, ⟨58, _⟩ => ⟨S8x2044x640, .f32⟩
  | .hbm, ⟨59, _⟩ => ⟨S8x2044x640, .f32⟩
  | .hbm, ⟨60, _⟩ => ⟨S_, .f32⟩
  | .hbm, ⟨61, _⟩ => ⟨S8x2044, .f32⟩
  | .hbm, ⟨62, _⟩ => ⟨S8x2044x1, .f32⟩
  | .hbm, ⟨63, _⟩ => ⟨S8x2044x1, .f32⟩
  | .hbm, ⟨64, _⟩ => ⟨S_, .f32⟩
  | .hbm, ⟨65, _⟩ => ⟨S8x2044x1, .f32⟩
  | .hbm, ⟨66, _⟩ => ⟨S8x2044x1, .f32⟩
  | .hbm, ⟨67, _⟩ => ⟨S8x2044x640, .f32⟩
  | .hbm, ⟨68, _⟩ => ⟨S8x2044x640, .f32⟩
  | .hbm, ⟨69, _⟩ => ⟨S8x2044x640, .f32⟩
  | .hbm, ⟨70, _⟩ => ⟨S_, .f32⟩
  | .hbm, ⟨71, _⟩ => ⟨S8x2044, .f32⟩
  | .hbm, ⟨72, _⟩ => ⟨S_, .f32⟩
  | .hbm, ⟨73, _⟩ => ⟨S8x2044, .f32⟩
  | .hbm, ⟨74, _⟩ => ⟨S8x2044, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S8x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_3 : Ref sig .tc := ⟨.hbm, 39, rfl⟩
abbrev main_v31 : Ref sig .tc := ⟨.hbm, 40, rfl⟩
abbrev main_v32 : Ref sig .tc := ⟨.hbm, 41, rfl⟩
abbrev main_c_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call0_v0 : Ref sig .tc := ⟨.hbm, 49, rfl⟩
abbrev main_call0_cst : Ref sig .tc := ⟨.hbm, 50, rfl⟩
abbrev main_call0_v1 : Ref sig .tc := ⟨.hbm, 51, rfl⟩
abbrev main_call0_v2 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call1_v0 : Ref sig .tc := ⟨.hbm, 59, rfl⟩
abbrev main_call1_cst : Ref sig .tc := ⟨.hbm, 60, rfl⟩
abbrev main_call1_v1 : Ref sig .tc := ⟨.hbm, 61, rfl⟩
abbrev main_call1_v2 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  shapeCasts_S8x2048x1_S8x2048 : S8x2048x1.ShapeCasts S8x2048
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S2044_S2044x1_0 : S2044.BroadcastsInDim S2044x1 (![0] : Fin 1 → Fin S2044x1.rank)
  bcast_S5_S1x5_1 : S5.BroadcastsInDim S1x5 (![1] : Fin 1 → Fin S1x5.rank)
  bcast_S2044x1_S2044x5_0_1 : S2044x1.BroadcastsInDim S2044x5 (![0, 1] : Fin 2 → Fin S2044x5.rank)
  bcast_S1x5_S2044x5_0_1 : S1x5.BroadcastsInDim S2044x5 (![0, 1] : Fin 2 → Fin S2044x5.rank)
  bcast_S_S2044x5 : S_.BroadcastsInDim S2044x5 (![] : Fin 0 → Fin S2044x5.rank)
  bcast_S2044x5_S2044x5x1_0_1 : S2044x5.BroadcastsInDim S2044x5x1 (![0, 1] : Fin 2 → Fin S2044x5x1.rank)
  shapeCasts_S8x2044x5x128_S8x2044x640 : S8x2044x5x128.ShapeCasts S8x2044x640
  reducesTo_S8x2044x640_S8x2044_d2 : S8x2044x640.ReducesTo [2] S8x2044
  bcast_S8x2044_S8x2044x1_0_1 : S8x2044.BroadcastsInDim S8x2044x1 (![0, 1] : Fin 2 → Fin S8x2044x1.rank)
  bcast_S_S8x2044x1 : S_.BroadcastsInDim S8x2044x1 (![] : Fin 0 → Fin S8x2044x1.rank)
  bcast_S8x2044x1_S8x2044x640_0_1_2 : S8x2044x1.BroadcastsInDim S8x2044x640 (![0, 1, 2] : Fin 3 → Fin S8x2044x640.rank)
  bcast_S_S8x2044 : S_.BroadcastsInDim S8x2044 (![] : Fin 0 → Fin S8x2044.rank)
  reducesTo_S8x2044_S_d0_1 : S8x2044.ReducesTo [0, 1] S_
  dot_S8x2048x2048_S8x2048x128_S8x2048x128_2_1_1_2_0_0_wf : DotDims.WF S8x2048x2048 S8x2048x128 S8x2048x128 [2] [1] [1] [2] [0] [0]
  gather_S8x2048x128_S2044x5x1_S8x2044x5x128_03_1_n_n_1_2_81128_wf : GatherDims.WF S8x2048x128 S2044x5x1 S8x2044x5x128 [0, 3] [1] [] [1] [] 2 ![8, 1, 128]

variable [Facts₀]

def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf
def gather_S8x2048x128_S2044x5x1_S8x2044x5x128_03_1_n_n_1_2_81128 : GatherDims S8x2048x128 S2044x5x1 S8x2044x5x128 where
  offsetDims := [0, 3]
  collapsedSliceDims := [1]
  operandBatchingDims := []
  startIndicesBatchingDims := []
  startIndexMap := [1]
  indexVectorDim := 2
  sliceSizes := ![8, 1, 128]
  wf := gather_S8x2048x128_S2044x5x1_S8x2044x5x128_03_1_n_n_1_2_81128_wf

class Facts : Prop extends Facts₀ where

variable [Facts]
-- ==== Proof.Spec.lean ====
/-
  The two results, written once as functions of the three argument arrays, over the extended reals.

  score : [8, 2048, 1], feature : [8, 2048, 128], proj : [8, 2048, 2048].

  The logits are proj[b, i, j] · score[b, j, 0].  Row (b, i) is shifted by its maximum (a fold of max from -∞),
  exponentiated and summed.  The first result, "aligned", is the softmax-weighted combination of the feature rows;
  it is spelt in two arrangements below: weights normalised BEFORE the contraction (each weight divided by the row
  sum, then contracted with the features), and AFTER it (the unnormalised contraction times the reciprocal of the
  row sum).  They agree when every entry is a real number.

  The second result is a mean over (b, n), n < 2044, of 1 - cos(b, n), where cos(b, n) is the cosine similarity of
  the 5-row windows [n, n + 5) of feature and of aligned, each window flattened to 640 numbers, with each norm
  clamped below by ε.  Again two arrangements: normalise each factor and then sum the 640 products; or sum the
  per-row products over the window's five rows and divide once by the product of the two clamped norms, the
  squared norms being window sums of per-row sums of squares.
-/
import Idealize.ShloMosaic.PureOps.Ideal.Laws
import Idealize.ShloMosaic.Lib.ValueIdx

noncomputable section

namespace Cert.Spec

open Idealize.ShloMosaic Idealize.ShloMosaic.ValueIdx

/-- The index sets of the three arguments, of the first result, of the packed per-row sums and of the (b, n) grid. -/
abbrev IScore : Type := (⟨3, ![8, 2048, 1]⟩ : Shape).Idx
abbrev IFeat : Type := (⟨3, ![8, 2048, 128]⟩ : Shape).Idx
abbrev IProj : Type := (⟨3, ![8, 2048, 2048]⟩ : Shape).Idx
abbrev IRed : Type := (⟨3, ![8, 2048, 3]⟩ : Shape).Idx
abbrev IWin : Type := (⟨2, ![8, 2044]⟩ : Shape).Idx

/-- The f32 patterns the two programs share: -∞, ε = 1e-12 rounded to f32, and the count 8 · 2044 = 16352. -/
abbrev negInf : EReal := Ideal.ofBits .f32 0xFF800000#32
abbrev epsF : EReal := Ideal.ofBits .f32 0x2B8CBCCC#32
abbrev oneF : EReal := Ideal.ofBits .f32 0x3F800000#32
abbrev cntF : EReal := Ideal.ofBits .f32 0x467F8000#32

section Aligned
variable (sc : IScore → EReal) (ft : IFeat → EReal) (pj : IProj → EReal)

/-- The logit at (b, i, j): column j of proj's row (b, i), scaled by score[b, j]. -/
def logit (b : Fin 8) (i j : Fin 2048) : EReal := pj (ix3 b i j) * sc (ix3 b j (0 : Fin 1))

/-- The maximum of row (b, i) of the logits, as a fold of max from -∞. -/
def rowTop (b : Fin 8) (i : Fin 2048) : EReal :=
  (Finset.univ : Finset (Fin 2048)).fold max negInf (fun j => logit sc pj b i j)

/-- The unnormalised softmax weight at (b, i, j). -/
def ew (b : Fin 8) (i j : Fin 2048) : EReal := Ideal.exp (logit sc pj b i j - rowTop sc pj b i)

/-- The row sum of the unnormalised weights. -/
def den (b : Fin 8) (i : Fin 2048) : EReal := ∑ j : Fin 2048, ew sc pj b i j

/-- aligned, weights normalised before the contraction. -/
def alignedPre : IFeat → EReal := fun y =>
  ∑ j : Fin 2048, Ideal.div (ew sc pj (y 0) (y 1) j) (den sc pj (y 0) (y 1)) * ft (ix3 (y 0) j (y 2))

/-- aligned, the contraction scaled afterwards by the reciprocal of the row sum. -/
def alignedPost : IFeat → EReal := fun y =>
  (∑ j : Fin 2048, ew sc pj (y 0) (y 1) j * ft (ix3 (y 0) j (y 2))) * Ideal.div oneF (den sc pj (y 0) (y 1))

end Aligned

section Loss
variable (ft A : IFeat → EReal)

/-- Per-row sums over the 128 features: squares of X, and products of X and Y. -/
def rowDot (X Y : IFeat → EReal) (b : Fin 8) (s : Fin 2048) : EReal := ∑ f : Fin 128, X (ix3 b s f) * Y (ix3 b s f)

/-- The three per-row sums packed along a last axis of extent 3: feature·feature, aligned·aligned, feature·aligned. -/
def packed : IRed → EReal := fun y =>
  if (y 2).val = 0 then rowDot ft ft (y 0) (y 1)
  else if (y 2).val = 1 then rowDot A A (y 0) (y 1)
  else rowDot ft A (y 0) (y 1)

/-- Row n + k of a window starting at n < 2044, k < 5. -/
def wrow (n : Fin 2044) (k : Fin 5) : Fin 2048 := ⟨n.val + k.val, by have := n.isLt; have := k.isLt; omega⟩

/-- The sum of a per-row quantity over the five rows of the window at n, added left to right. -/
def win5 (x : Fin 8 → Fin 2048 → EReal) (b : Fin 8) (n : Fin 2044) : EReal :=
  x b (wrow n 0) + x b (wrow n 1) + x b (wrow n 2) + x b (wrow n 3) + x b (wrow n 4)

/-- cos(b, n), one division: the window sum of row products over the product of the two clamped norms. -/
def cosOnce (b : Fin 8) (n : Fin 2044) : EReal :=
  Ideal.div (win5 (rowDot ft A) b n)
    (max (Ideal.sqrt (win5 (rowDot ft ft) b n)) epsF * max (Ideal.sqrt (win5 (rowDot A A) b n)) epsF)

/-- Entry q < 640 of the flattened window at (b, n): row n + q / 128, feature q % 128. -/
def wflat (X : IFeat → EReal) (b : Fin 8) (n : Fin 2044) (q : Fin 640) : EReal :=
  X (ix3 b (wrow n ⟨q.val / 128, by have := q.isLt; omega⟩) ⟨q.val % 128, Nat.mod_lt _ (by norm_num)⟩)

/-- The clamped norm of the flattened window. -/
def wnorm (X : IFeat → EReal) (b : Fin 8) (n : Fin 2044) : EReal :=
  max (Ideal.sqrt (∑ q : Fin 640, wflat X b n q * wflat X b n q)) epsF

/-- cos(b, n), each factor normalised first. -/
def cosEach (b : Fin 8) (n : Fin 2044) : EReal :=
  ∑ q : Fin 640, Ideal.div (wflat ft b n q) (wnorm ft b n) * Ideal.div (wflat A b n q) (wnorm A b n)

end Loss

/-- cos(b, n) read off the packed per-row sums: column 2 over the product of the clamped roots of columns 0 and 1. -/
def cosPacked (R : IRed → EReal) (b : Fin 8) (n : Fin 2044) : EReal :=
  Ideal.div (win5 (fun b s => R (ix3 b s (2 : Fin 3))) b n)
    (max (Ideal.sqrt (win5 (fun b s => R (ix3 b s (0 : Fin 3))) b n)) epsF
      * max (Ideal.sqrt (win5 (fun b s => R (ix3 b s (1 : Fin 3))) b n)) epsF)

section Block
/-! One grid point's share: 512 rows of one batch.  `p` is the point's [1, 512, 2048] block of proj, `s` the batch's
    [1, 1, 2048] row of scores, `g` the batch's [1, 2048, 128] block of features. -/
variable (p : (⟨3, ![1, 512, 2048]⟩ : Shape).Idx → EReal) (s : (⟨3, ![1, 1, 2048]⟩ : Shape).Idx → EReal)
  (g : (⟨3, ![1, 2048, 128]⟩ : Shape).Idx → EReal)

/-- The logit of local row r at column j. -/
def blkLogit (r : Fin 512) (j : Fin 2048) : EReal := p (ix3 (0 : Fin 1) r j) * s (ix3 (0 : Fin 1) (0 : Fin 1) j)

/-- Local row r's maximum. -/
def blkTop (r : Fin 512) : EReal := (Finset.univ : Finset (Fin 2048)).fold max negInf (fun j => blkLogit p s r j)

/-- The unnormalised weight of local row r at column j. -/
def blkE (r : Fin 512) (j : Fin 2048) : EReal := Ideal.exp (blkLogit p s r j - blkTop p s r)

/-- Local row r of aligned at feature f: the contraction scaled by the reciprocal of the row sum. -/
def blkAligned (r : Fin 512) (f : Fin 128) : EReal :=
  (∑ j : Fin 2048, blkE p s r j * g (ix3 (0 : Fin 1) j f)) * Ideal.div oneF (∑ j : Fin 2048, blkE p s r j)

end Block

/-- The mean over the 8 · 2044 windows of 1 - cos. -/
def meanLoss (cos : Fin 8 → Fin 2044 → EReal) : EReal :=
  Ideal.div (∑ y : IWin, (oneF - cos (y 0) (y 1))) cntF

end Cert.Spec

end
-- ==== Proof.LibPropagate.lean ====
/-
  Two finite contractions in either order, over the extended reals.

  Let H be a family indexed by N × E, d and Y families over N and ide a family over E, all with real entries.  Contracting H with
  the scaled family Y·d over N, scaling by ide, contracting with H over E and scaling by d gives, at i,

      (∑ e, H i e * ((∑ j, H j e * (Y j * d j)) * ide e)) * d i,

  and forming the kernel G i j = ∑ e, ((d i * H i e) * ide e) * (d j * H j e) first and then contracting it with Y gives

      ∑ j, G i j * Y j.

  The two are one number: distribute the outer factors into the inner sum, exchange the two finite sums, and compare the
  summands as products of the same six reals.  Distributivity of * over + fails at the infinities of the extended reals, so
  every entry is asked to be a real number; the identity is then the image of the identity over ℝ under the coercion, which
  commutes with *, + and finite sums.

  The file also regroups a sum of a·b terms into a blocks of b terms.
-/
import Mathlib.Data.EReal.Operations
import Mathlib.Algebra.BigOperators.Ring.Finset
import Mathlib.Algebra.BigOperators.Fin
import Mathlib.Logic.Equiv.Fin.Basic
import Mathlib.Tactic.Ring

open scoped BigOperators

namespace Cert.Lib.Propagate

/-! ### Real entries are closed under +, * and finite sums -/

/-- The sum of two extended reals that are real numbers is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two extended reals that are real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion from ℝ commutes with a finite sum: by induction on the index set, one term at a time. -/
theorem coe_finsetSum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a finite set of extended reals that are all real numbers is a real number. -/
theorem finsetSum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsetSum]; exact Finset.sum_congr rfl fun i _ => hg i⟩

/-- A sum over a finite type of extended reals that are all real numbers is a real number. -/
theorem sum_real {ι : Type} [Fintype ι] (f : ι → EReal) (hf : ∀ i, ∃ r : ℝ, f i = (r : EReal)) :
    ∃ r : ℝ, ∑ i, f i = (r : EReal) :=
  finsetSum_real Finset.univ f hf

/-! ### The two orders of contraction -/

section Propagate

variable {N E : Type} [Fintype N] [Fintype E]

/-- Over ℝ: scaling and contracting over N first and over E second equals contracting the kernel
    `∑ e, ((d i * H i e) * ide e) * (d j * H j e)` with `Y`.  Both sides are the double sum over (j, e) of the product
    of the six factors `d i, H i e, ide e, d j, H j e, Y j`. -/
theorem propagate_eq_real (h : N → E → ℝ) (δ : N → ℝ) (ε : E → ℝ) (y : N → ℝ) (i : N) :
    (∑ e, h i e * ((∑ j, h j e * (y j * δ j)) * ε e)) * δ i
      = ∑ j, (∑ e, ((δ i * h i e) * ε e) * (δ j * h j e)) * y j := by
  have hl : (∑ e, h i e * ((∑ j, h j e * (y j * δ j)) * ε e)) * δ i
      = ∑ e, ∑ j, δ i * h i e * ε e * (δ j * h j e) * y j := by
    rw [Finset.sum_mul]
    refine Finset.sum_congr rfl fun e _ => ?_
    rw [Finset.sum_mul, Finset.mul_sum, Finset.sum_mul]
    refine Finset.sum_congr rfl fun j _ => ?_
    ring
  have hr : (∑ j, (∑ e, ((δ i * h i e) * ε e) * (δ j * h j e)) * y j)
      = ∑ j, ∑ e, δ i * h i e * ε e * (δ j * h j e) * y j :=
    Finset.sum_congr rfl fun j _ => Finset.sum_mul _ _ _
  rw [hl, hr, Finset.sum_comm]

/-- Over the extended reals, with every entry a real number: the contraction over N first and E second, scaled by `ide`
    between and by `d` at both ends, equals the kernel `∑ e, ((d i * H i e) * ide e) * (d j * H j e)` contracted with `Y`.
    The real witnesses are chosen, the coercion is moved outside both sides, and the identity over ℝ closes it. -/
theorem propagate_eq (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    (∑ e, H i e * ((∑ j, H j e * (Y j * d j)) * ide e)) * d i
      = ∑ j, (∑ e, ((d i * H i e) * ide e) * (d j * H j e)) * Y j := by
  choose h hh using hH
  choose δ hδ using hd
  choose ε hε using hide
  choose y hy using hY
  have hl : (∑ e, H i e * ((∑ j, H j e * (Y j * d j)) * ide e)) * d i
      = (((∑ e, h i e * ((∑ j, h j e * (y j * δ j)) * ε e)) * δ i : ℝ) : EReal) := by
    simp only [hh, hδ, hε, hy, EReal.coe_mul, coe_finsetSum]
  have hr : (∑ j, (∑ e, ((d i * H i e) * ide e) * (d j * H j e)) * Y j)
      = ((∑ j, (∑ e, ((δ i * h i e) * ε e) * (δ j * h j e)) * y j : ℝ) : EReal) := by
    simp only [hh, hδ, hε, hy, EReal.coe_mul, coe_finsetSum]
  rw [hl, hr, propagate_eq_real]

/-- With every entry a real number, the propagated value is a real number: it is built from the entries by products and
    finite sums only. -/
theorem propagate_real (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    ∃ r : ℝ, (∑ e, H i e * ((∑ j, H j e * (Y j * d j)) * ide e)) * d i = (r : EReal) :=
  mul_real
    (sum_real _ fun e =>
      mul_real (hH i e) (mul_real (sum_real _ fun j => mul_real (hH j e) (mul_real (hY j) (hd j))) (hide e)))
    (hd i)

end Propagate

/-! ### A sum of a·b terms as a blocks of b -/

/-- Regrouping: the sum of `g` over the first `a * b` naturals is the sum over `a` consecutive blocks of `b` terms, block
    `t` holding the arguments `t * b + r` for `r < b`.  The pairs (t, r) and the naturals below `a * b` correspond by
    `(t, r) ↦ r + b * t`. -/
theorem sum_blocks {M : Type} [AddCommMonoid M] (a b : ℕ) (g : ℕ → M) :
    ∑ t : Fin a, ∑ r : Fin b, g (t.val * b + r.val) = ∑ j : Fin (a * b), g j.val := by
  rw [← Fintype.sum_prod_type', ← (finProdFinEquiv (m := a) (n := b)).sum_comp]
  refine Fintype.sum_congr _ _ fun p => ?_
  rw [finProdFinEquiv_apply_val, Nat.add_comm, Nat.mul_comm]

/-- The regrouping at 10000 = 25 · 400: 25 blocks of 400 consecutive terms. -/
theorem sum_blocks_25_400 {M : Type} [AddCommMonoid M] (g : ℕ → M) :
    (∑ t : Fin 25, ∑ r : Fin 400, g (t.val * 400 + r.val)) = ∑ j : Fin 10000, g j.val :=
  sum_blocks 25 400 g

end Cert.Lib.Propagate
-- ==== Proof.AlgebraAligned.lean ====
/-
  The softmax-weighted combination of the feature rows, in its two arrangements, over the extended reals.

  For a row (b, i) the logits l_j are products of two real entries, hence real.  Their maximum t, a fold of max
  from -∞ over a nonempty index set, is therefore one of them and real.  Each weight is e_j = exp (l_j - t), the
  coercion of a POSITIVE real, so the row sum D = ∑ e_j is the coercion of a positive real, in particular not zero.
  Division by a nonzero real D is multiplication by the real 1 / D.  With every factor a real number, both arrangements
  are coercions of real expressions,

      (∑ e_j · F_j) · (1 · (1 / D))      and      ∑ (e_j · (1 / D)) · F_j,

  and these agree over ℝ by distributing the factor 1 / D into the finite sum.  Distributivity of · over + fails at
  the infinities of the extended reals, which is why every factor is first shown to be real.
-/
import proofs.«407050_j39771397161407_3_alg».proof.Proof.Spec
import proofs.«407050_j39771397161407_3_alg».proof.Proof.LibPropagate

noncomputable section

namespace Cert.Algebra
open Idealize.ShloMosaic Idealize.ShloMosaic.ValueIdx Cert.Spec
open Cert.Lib.Propagate

/-! ### The two shared patterns -/

/-- The pattern with sign bit set, all exponent bits set and a zero significand denotes -∞. -/
theorem negInf_eq : negInf = ⊥ := by
  simp [negInf, Ideal.ofBits, Ideal.ieee]

/-- The pattern with exponent field equal to the bias and a zero significand denotes one. -/
theorem oneF_eq : oneF = 1 := by
  rw [show (1 : EReal) = ((1 : ℝ) : EReal) by norm_cast]
  simp [oneF, Ideal.ofBits, Ideal.ieee, -EReal.coe_mul]; norm_num

/-! ### The maximum of finitely many reals, folded from -∞ -/

/-- The coercion from ℝ commutes with max: it is monotone. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- Folding max from -∞ over a NONEMPTY finite set of real numbers gives a real number: over a single index the
    fold is that entry, and each further index takes the max of two reals. -/
theorem fold_max_real {ι : Type} (f : ι → EReal) (hf : ∀ i, ∃ r : ℝ, f i = (r : EReal)) (s : Finset ι)
    (hs : s.Nonempty) : ∃ r : ℝ, s.fold max ⊥ f = (r : EReal) := by
  choose g hg using hf
  induction hs using Finset.Nonempty.cons_induction with
  | singleton a => exact ⟨g a, by rw [Finset.fold_singleton, hg, max_eq_left bot_le]⟩
  | cons a s ha hs ih =>
    obtain ⟨r, hr⟩ := ih
    exact ⟨max (g a) r, by rw [Finset.fold_cons, hr, hg, max_coe]⟩

/-! ### The pieces of one row are real -/

section Row
variable (sc : IScore → EReal) (pj : IProj → EReal)
  (hsc : ∀ i, ∃ r : ℝ, sc i = (r : EReal)) (hpj : ∀ i, ∃ r : ℝ, pj i = (r : EReal))
include hsc hpj

/-- Each logit is a product of two real entries. -/
theorem logit_real (b : Fin 8) (i j : Fin 2048) : ∃ r : ℝ, logit sc pj b i j = (r : EReal) :=
  mul_real (hpj _) (hsc _)

/-- The row maximum is real: the row has 2048 > 0 columns. -/
theorem rowTop_real (b : Fin 8) (i : Fin 2048) : ∃ r : ℝ, rowTop sc pj b i = (r : EReal) := by
  unfold rowTop
  rw [negInf_eq]
  exact fold_max_real _ (fun j => logit_real sc pj hsc hpj b i j) Finset.univ ⟨(0 : Fin 2048), Finset.mem_univ _⟩

/-- Each unnormalised weight is the coercion of a positive real, the exponential of a real. -/
theorem ew_pos_real (b : Fin 8) (i j : Fin 2048) : ∃ r : ℝ, 0 < r ∧ ew sc pj b i j = (r : EReal) := by
  obtain ⟨l, hl⟩ := logit_real sc pj hsc hpj b i j
  obtain ⟨t, ht⟩ := rowTop_real sc pj hsc hpj b i
  refine ⟨Real.exp (l - t), Real.exp_pos _, ?_⟩
  unfold ew
  rw [hl, ht, ← EReal.coe_sub, Ideal.exp_coe]

/-- The row sum is the coercion of a positive real: a sum of 2048 positive reals. -/
theorem den_pos_real (b : Fin 8) (i : Fin 2048) : ∃ d : ℝ, 0 < d ∧ den sc pj b i = (d : EReal) := by
  choose e he0 he using fun j => ew_pos_real sc pj hsc hpj b i j
  refine ⟨∑ j : Fin 2048, e j, Finset.sum_pos (fun j _ => he0 j) ⟨(0 : Fin 2048), Finset.mem_univ _⟩, ?_⟩
  unfold den
  rw [coe_finsetSum]
  exact Finset.sum_congr rfl fun j _ => he j

end Row

/-! ### Scaling a finite contraction of reals by a reciprocal, before or after -/

/-- With the weights E, the features G and the nonzero divisor D all real: the contraction scaled afterwards by
    1 / D equals the contraction of the weights each divided by D.  Both sides are coercions; over ℝ the factor
    1 / D distributes into the sum. -/
theorem post_eq_pre_of_real {ι : Type} [Fintype ι] (E G : ι → EReal) (D : EReal) (e g : ι → ℝ) (d : ℝ)
    (hd : d ≠ 0) (hE : ∀ j, E j = (e j : EReal)) (hG : ∀ j, G j = (g j : EReal)) (hD : D = (d : EReal)) :
    (∑ j, E j * G j) * Ideal.div 1 D = ∑ j, Ideal.div (E j) D * G j := by
  have hl : (∑ j, E j * G j) * Ideal.div 1 D = (((∑ j, e j * g j) * (1 * (1 / d)) : ℝ) : EReal) := by
    rw [hD, Ideal.div_coe hd]
    simp only [hE, hG, EReal.coe_mul, coe_finsetSum, EReal.coe_one]
  have hr : (∑ j, Ideal.div (E j) D * G j) = ((∑ j, e j * (1 / d) * g j : ℝ) : EReal) := by
    rw [hD]
    simp only [Ideal.div_coe hd, hE, hG, EReal.coe_mul, coe_finsetSum]
  rw [hl, hr, Finset.sum_mul]
  refine congrArg _ (Finset.sum_congr rfl fun j _ => ?_)
  ring

/-- With the weights, the features and the nonzero divisor all real, the contraction of the normalised weights is
    real: it is built from reals by products and a finite sum. -/
theorem pre_real_of_real {ι : Type} [Fintype ι] (E G : ι → EReal) (D : EReal) (e g : ι → ℝ) (d : ℝ)
    (hd : d ≠ 0) (hE : ∀ j, E j = (e j : EReal)) (hG : ∀ j, G j = (g j : EReal)) (hD : D = (d : EReal)) :
    ∃ r : ℝ, (∑ j, Ideal.div (E j) D * G j) = (r : EReal) := by
  refine ⟨∑ j, e j * (1 / d) * g j, ?_⟩
  rw [hD]
  simp only [Ideal.div_coe hd, hE, hG, EReal.coe_mul, coe_finsetSum]

/-! ### The two statements -/

theorem alignedPost_eq_pre (sc : IScore → EReal) (ft : IFeat → EReal) (pj : IProj → EReal)
    (hsc : ∀ i, ∃ r : ℝ, sc i = (r : EReal)) (hft : ∀ i, ∃ r : ℝ, ft i = (r : EReal)) (hpj : ∀ i, ∃ r : ℝ, pj i = (r : EReal)) :
    alignedPost sc ft pj = alignedPre sc ft pj := by
  funext y
  choose e he0 he using fun j => ew_pos_real sc pj hsc hpj (y 0) (y 1) j
  choose g hg using hft
  obtain ⟨d, hd0, hd⟩ := den_pos_real sc pj hsc hpj (y 0) (y 1)
  unfold alignedPost alignedPre
  rw [oneF_eq]
  exact post_eq_pre_of_real (fun j => ew sc pj (y 0) (y 1) j) (fun j => ft (ix3 (y 0) j (y 2)))
    (den sc pj (y 0) (y 1)) e (fun j => g (ix3 (y 0) j (y 2))) d hd0.ne' he (fun j => hg _) hd

theorem alignedPre_real (sc : IScore → EReal) (ft : IFeat → EReal) (pj : IProj → EReal)
    (hsc : ∀ i, ∃ r : ℝ, sc i = (r : EReal)) (hft : ∀ i, ∃ r : ℝ, ft i = (r : EReal)) (hpj : ∀ i, ∃ r : ℝ, pj i = (r : EReal)) :
    ∀ y, ∃ r : ℝ, alignedPre sc ft pj y = (r : EReal) := by
  intro y
  choose e he0 he using fun j => ew_pos_real sc pj hsc hpj (y 0) (y 1) j
  choose g hg using hft
  obtain ⟨d, hd0, hd⟩ := den_pos_real sc pj hsc hpj (y 0) (y 1)
  unfold alignedPre
  exact pre_real_of_real (fun j => ew sc pj (y 0) (y 1) j) (fun j => ft (ix3 (y 0) j (y 2)))
    (den sc pj (y 0) (y 1)) e (fun j => g (ix3 (y 0) j (y 2))) d hd0.ne' he (fun j => hg _) hd

end Cert.Algebra
end
-- ==== Proof.AlgebraCos.lean ====
/-
  The cosine of two flattened windows, with one division or with 640.

  A window at (b, n) is five consecutive rows of 128 features, read as one vector of 640 numbers: entry q sits in row
  n + q / 128 at feature q % 128.  Since q ↦ (q / 128, q % 128) is a bijection from the 640 positions onto the pairs
  (row k < 5, feature f < 128), a sum over the 640 entries is the sum over the five rows of the per-row sums over the 128
  features.  That identity holds in any commutative monoid, so over the extended reals it needs nothing about the entries:
  the inner product of two flattened windows IS the five-row window sum of the per-row inner products, and the squared norm
  of a flattened window is the window sum of the per-row sums of squares.  In particular the clamped norm of a flattened
  window is exactly the factor that appears in the one-division form.

  What is left is  (∑ x·y) / (N₁ N₂) = ∑ (x / N₁)·(y / N₂).  Over the extended reals this is false in general (multiplication
  does not distribute over addition at the infinities), so every entry is taken to be a real number.  Then each squared norm
  is a real number, its root is a real number or the junk value ⊥, and the larger of that and ε — a positive real — is a
  positive real.  Division by a nonzero real is multiplication by its reciprocal, so both sides are images, under the
  coercion from ℝ, of real expressions, and over ℝ the identity is the distributive law together with
  1 / (N₁ N₂) = (1 / N₁)(1 / N₂).
-/
import proofs.«407050_j39771397161407_3_alg».proof.Proof.Spec
import proofs.«407050_j39771397161407_3_alg».proof.Proof.LibPropagate

noncomputable section

namespace Cert.Algebra
open Idealize.ShloMosaic Idealize.ShloMosaic.ValueIdx Cert.Spec Cert.Lib.Propagate

namespace Cos

/-! ### 640 = 5 · 128: a flat sum as five rows of 128 -/

/-- A sum over the 640 flat positions of a quantity that depends on the position only through its row q / 128 and its
    feature q % 128 is the double sum over the 5 rows and the 128 features: the pairs (k, f) and the positions correspond
    one to one by q ↦ (q / 128, q % 128). -/
theorem sum_flat640 (F : Fin 5 → Fin 128 → EReal) :
    (∑ q : Fin 640, F ⟨q.val / 128, by have := q.isLt; omega⟩ ⟨q.val % 128, Nat.mod_lt _ (by norm_num)⟩)
      = ∑ k : Fin 5, ∑ f : Fin 128, F k f := by
  rw [← Fintype.sum_prod_type']
  exact (finProdFinEquiv (m := 5) (n := 128)).symm.sum_comp (fun p => F p.1 p.2)

/-- The five-term window sum, written out left to right, is the sum over k < 5 of the rows n + k. -/
theorem win5_eq_sum (x : Fin 8 → Fin 2048 → EReal) (b : Fin 8) (n : Fin 2044) :
    win5 x b n = ∑ k : Fin 5, x b (wrow n k) :=
  (Fin.sum_univ_five fun k => x b (wrow n k)).symm

/-- The inner product of two flattened windows is the window sum of the per-row inner products.  No entry needs to be
    finite: only the order of a finite sum changes. -/
theorem flat_dot (X Y : IFeat → EReal) (b : Fin 8) (n : Fin 2044) :
    (∑ q : Fin 640, wflat X b n q * wflat Y b n q) = win5 (rowDot X Y) b n := by
  rw [win5_eq_sum]
  exact sum_flat640 fun k f => X (ix3 b (wrow n k) f) * Y (ix3 b (wrow n k) f)

/-- Hence the clamped norm of a flattened window is the clamped root of the window sum of the per-row sums of squares. -/
theorem wnorm_eq (X : IFeat → EReal) (b : Fin 8) (n : Fin 2044) :
    wnorm X b n = max (Ideal.sqrt (win5 (rowDot X X) b n)) epsF := by
  unfold wnorm
  rw [flat_dot]

/-- With real entries, a window sum of per-row inner products is a real number: it is a finite sum of products of reals. -/
theorem win5_rowDot_real (X Y : IFeat → EReal) (hX : ∀ i, ∃ r : ℝ, X i = (r : EReal))
    (hY : ∀ i, ∃ r : ℝ, Y i = (r : EReal)) (b : Fin 8) (n : Fin 2044) :
    ∃ r : ℝ, win5 (rowDot X Y) b n = (r : EReal) := by
  rw [← flat_dot]
  exact sum_real _ fun q => mul_real (hX _) (hY _)

/-! ### The clamped norms are positive reals -/

/-- ε is a positive real: the pattern has sign 0, exponent field 87 and fraction field 834764, a normal number, namely
    (2²³ + 834764) · 2^(87 - 127 - 23) = 9223372 · 2⁻⁶³. -/
theorem epsF_pos_real : ∃ ε : ℝ, 0 < ε ∧ epsF = (ε : EReal) := by
  refine ⟨(9223372 : ℝ) * (2 : ℝ) ^ (-63 : ℤ), by positivity, ?_⟩
  simp [epsF, Ideal.ofBits, Ideal.ieee, -EReal.coe_mul]

/-- The larger of the root of a real number and a positive real is a positive real.  The root of a negative real is ⊥,
    below everything, and the maximum is then the positive real itself; the root of a nonnegative real is a real, and the
    coercion from ℝ, being monotone, commutes with the maximum. -/
theorem clamp_pos_real (x e : EReal) (hx : ∃ r : ℝ, x = (r : EReal)) (he : ∃ ε : ℝ, 0 < ε ∧ e = (ε : EReal)) :
    ∃ m : ℝ, 0 < m ∧ max (Ideal.sqrt x) e = (m : EReal) := by
  obtain ⟨r, rfl⟩ := hx
  obtain ⟨ε, hε, rfl⟩ := he
  rw [Ideal.sqrt_coe]
  by_cases h : r < 0
  · rw [if_pos h]
    exact ⟨ε, hε, max_eq_right bot_le⟩
  · rw [if_neg h]
    exact ⟨max (Real.sqrt r) ε, lt_max_of_lt_right hε, (EReal.coe_strictMono.monotone.map_max).symm⟩

/-! ### One division or one per factor -/

/-- Over ℝ, with a, c ≠ 0: scaling the inner product by 1 / (a c) is the inner product of the vectors scaled by 1 / a and
    1 / c.  Distribute the scalar over the sum and compare term by term. -/
theorem cos_real (x y : Fin 640 → ℝ) (a c : ℝ) (ha : a ≠ 0) (hc : c ≠ 0) :
    (∑ q, x q * y q) * (1 / (a * c)) = ∑ q, (x q * (1 / a)) * (y q * (1 / c)) := by
  rw [Finset.sum_mul]
  refine Finset.sum_congr rfl fun q _ => ?_
  field_simp

/-- The same over the extended reals at real arguments: each division by a nonzero real is the product with the
    reciprocal, every factor is then the image of a real, and the coercion commutes with products and finite sums, so both
    sides are the images of the two sides of the real identity. -/
theorem cos_coe (x y : Fin 640 → ℝ) (a c : ℝ) (ha : a ≠ 0) (hc : c ≠ 0) :
    Ideal.div (∑ q, (x q : EReal) * (y q : EReal)) ((a : EReal) * (c : EReal))
      = ∑ q, Ideal.div (x q : EReal) (a : EReal) * Ideal.div (y q : EReal) (c : EReal) := by
  have hl : Ideal.div (∑ q, (x q : EReal) * (y q : EReal)) ((a : EReal) * (c : EReal))
      = (((∑ q, x q * y q) * (1 / (a * c)) : ℝ) : EReal) := by
    rw [← EReal.coe_mul a c, Ideal.div_coe (mul_ne_zero ha hc), EReal.coe_mul, coe_finsetSum]
    simp only [EReal.coe_mul]
  have hr : (∑ q, Ideal.div (x q : EReal) (a : EReal) * Ideal.div (y q : EReal) (c : EReal))
      = ((∑ q, (x q * (1 / a)) * (y q * (1 / c)) : ℝ) : EReal) := by
    rw [coe_finsetSum]
    refine Finset.sum_congr rfl fun q _ => ?_
    rw [Ideal.div_coe ha, Ideal.div_coe hc, EReal.coe_mul, EReal.coe_mul, EReal.coe_mul]
  rw [hl, hr, cos_real x y a c ha hc]

end Cos

/-- The two arrangements of cos(b, n) agree when every entry of both arrays is a real number.  Name the two clamped norms
    a and c (positive reals) and the 640 entries of the two flattened windows x and y (reals); the numerator of the
    one-division form is the flat inner product ∑ x·y, the clamped norms of the flattened windows are a and c, and the claim
    is the identity above. -/
theorem cosOnce_eq_each (ft A : IFeat → EReal)
    (hft : ∀ i, ∃ r : ℝ, ft i = (r : EReal)) (hA : ∀ i, ∃ r : ℝ, A i = (r : EReal)) (b : Fin 8) (n : Fin 2044) :
    cosOnce ft A b n = cosEach ft A b n := by
  obtain ⟨a, ha, eN1⟩ :=
    Cos.clamp_pos_real (win5 (rowDot ft ft) b n) epsF (Cos.win5_rowDot_real ft ft hft hft b n) Cos.epsF_pos_real
  obtain ⟨c, hc, eN2⟩ :=
    Cos.clamp_pos_real (win5 (rowDot A A) b n) epsF (Cos.win5_rowDot_real A A hA hA b n) Cos.epsF_pos_real
  have hx : ∀ q : Fin 640, ∃ r : ℝ, wflat ft b n q = (r : EReal) := fun q => hft _
  have hy : ∀ q : Fin 640, ∃ r : ℝ, wflat A b n q = (r : EReal) := fun q => hA _
  choose x ex using hx
  choose y ey using hy
  unfold cosOnce cosEach
  rw [Cos.wnorm_eq, Cos.wnorm_eq, eN1, eN2, ← Cos.flat_dot]
  simp only [ex, ey]
  exact Cos.cos_coe x y a c ha.ne' hc.ne'

end Cert.Algebra
end
-- ==== Proof.Finite.lean ====
/-
  The precondition says, of each of the three argument arrays, that every entry x has |x| < +∞, the three "for all"
  statements joined by "and".  At the ideal values an entry is an extended real, |x| is the larger of x and -x, and
  that is below +∞ exactly when x is neither +∞ nor -∞, that is, when x is a real number.  So if the precondition
  evaluates to the set bit, every entry of every argument is a real number.
-/
import proofs.«407050_j39771397161407_3_alg».proof.Defs
import proofs.«407050_j39771397161407_3_alg».proof.Proof.Gen.Pre_finite_inputs
import proofs.«407050_j39771397161407_3_alg».proof.Proof.Spec
import Idealize.ShloMosaic.Lib.ReduceAll

noncomputable section

namespace Cert.Finite
open Idealize.ShloMosaic Idealize.ShloMosaic.ValueIdx Cert.Spec

/-- The f32 pattern with all exponent bits set and no fraction bits denotes +∞. -/
theorem posInf_eq_top : Ideal.ofBits .f32 0x7F800000#32 = (⊤ : EReal) := by
  simp [Ideal.ofBits, Ideal.ieee]

/-- One element of the test: if max(x, -x) is strictly below +∞ then x is neither infinity.
    At x = -∞ or x = +∞ the maximum of x and -x is +∞, which is not below itself. -/
theorem real_of_abs_lt (x : EReal)
    (h : Ideal.cmp .olt (max x (-x)) (Ideal.ofBits .f32 0x7F800000#32) = 1#1) : ∃ r : ℝ, x = (r : EReal) := by
  rw [posInf_eq_top] at h
  induction x using EReal.rec with
  | bot => simp [Ideal.cmp] at h
  | coe r => exact ⟨r, rfl⟩
  | top => simp [Ideal.cmp] at h

/-- The result of a reduction over every axis has a single index. -/
instance : Subsingleton Cert.Pre_finite_inputs.S_.Idx := ⟨fun a b => funext fun d => d.elim0⟩

theorem real_of_pre [Cert.Pre_finite_inputs.Facts] (x0 : IScore → EReal) (x1 : IFeat → EReal) (x2 : IProj → EReal)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn, andi] at h0
  obtain ⟨h01, hc⟩ := IntOp.andi_eq_one.1 h0
  obtain ⟨ha, hb⟩ := IntOp.andi_eq_one.1 h01
  refine ⟨fun i => ?_, fun i => ?_, fun i => ?_⟩
  · exact real_of_abs_lt _ (Host.reduce_andi_all _ _ _ _ _ ha i)
  · exact real_of_abs_lt _ (Host.reduce_andi_all _ _ _ _ _ hb i)
  · exact real_of_abs_lt _ (Host.reduce_andi_all _ _ _ _ _ hc i)

end Cert.Finite
end
-- ==== Proof.LibSoftmaxRows.lean ====
/-
  Softmax along the rows of a rank-two array, as a vector program spells it, read at an index.

  For an array `s` of shape [a, b] the program takes each row's maximum by a reduction over the second axis from -∞
  (and joins the result with -∞ once more, which changes nothing), views the [a] vector of maxima as an [a, 1] column
  and broadcasts the column across the row, subtracts, exponentiates, sums each row of exponentials from 0 the same
  way, broadcasts the sums, and divides.  At the ideal values every one of these is the textbook operation on the
  extended reals, so entry (i, j) of the result is

      exp (s i j - M i) / ∑ j', exp (s i j' - M i),     M i = max (-∞) (max over j of s i j),

  with the maximum a fold of `max` over the row's coordinates and the quotient the extended reals' `Ideal.div`.
  The two column forms of a layout operation that the reading needs — an [a] vector viewed as [a, 1], an [a, 1]
  column broadcast to [a, b] — are stated first; then a row reduction over the second axis at row `i`; then the
  composite.  Nothing here depends on a particular kernel: shapes are generic in `a` and `b`.
-/
import Idealize.ShloMosaic.PureOps.Ideal.Laws
import Idealize.ShloMosaic.Lib.ValueIdx
import Idealize.ShloMosaic.Lib.Pipeline.Value

noncomputable section

namespace Cert.Lib.SoftmaxRows

open Idealize.ShloMosaic Idealize.ShloMosaic.ValueIdx

variable {α : Type} {a b : ℕ}

/-! ## Two column forms of a layout operation -/

/-- An [a] vector viewed as an [a, 1] column reads, at (i, u), the vector at i: both have row-major position i. -/
theorem colCast_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast across [a, b] reads, at (i, j), the column at (i, 0). -/
theorem colBroadcast_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ fun c => match c with
    | ⟨0, _⟩ => by
        show i.val = if a = 1 then 0 else i.val
        have := i.isLt
        split_ifs <;> omega
    | ⟨1, _⟩ => by
        show (0 : ℕ) = if (1 : ℕ) = 1 then 0 else j.val
        rw [if_pos rfl]

/-! ## A reduction over the second axis, at row i -/

/-- Row i's index with the column coordinate j put back is (i, j). -/
theorem lift_row (h : (⟨2, ![a, b]⟩ : Shape).Reduces [1] ⟨1, ![a]⟩) (i : Fin a) (j : Fin b) :
    h.lift (ix1 i) j = ix2 i j :=
  funext fun c => Fin.ext (by match c with | ⟨0, _⟩ => rfl | ⟨1, _⟩ => rfl)

variable {φ : FTy}

/-- A maximum-reduction over the second axis is, at row i, the fold of `max` from the accumulator's value over the
    row's entries. -/
theorem rowMax_apply (s : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ s acc h hφ hacc (ix1 i)
      = (Finset.univ : Finset (Fin b)).fold max (Ideal.ofBits φ acc) (fun j => s (ix2 i j)) := by
  rw [Ideal.multiReduction_maximumf_single]
  have e : (s ∘ h.lift (ix1 i)) = fun j : Fin b => s (ix2 i j) := funext fun j => congrArg s (lift_row h i j)
  rw [e]
  rfl

/-- A sum-reduction over the second axis is, at row i, the sum of the row's entries. -/
theorem rowSum_apply (s : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ s acc h hφ hacc (ix1 i) = ∑ j : Fin b, s (ix2 i j) := by
  rw [Ideal.multiReduction_add_single]
  exact Finset.sum_congr rfl fun j _ => congrArg s (lift_row h i j)

/-! ## The same row maximum as a host reduction over the last axis of a rank-three array -/

/-- Row (p, i)'s index with the last coordinate j put back is (p, i, j). -/
theorem lift_row3 {c : ℕ} (h : (⟨3, ![a, b, c]⟩ : Shape).Reduces [2] ⟨2, ![a, b]⟩) (p : Fin a) (i : Fin b) (j : Fin c) :
    h.lift (ix2 p i) j = ix3 p i j :=
  funext fun d => Fin.ext (by match d with | ⟨0, _⟩ => rfl | ⟨1, _⟩ => rfl | ⟨2, _⟩ => rfl)

/-- A host reduction by `max` over the last axis is, at (p, i), the fold of `max` from the initial value over the
    entries (p, i, ·). -/
theorem hostRowMax_apply {c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (i : Fin b) :
    Host.reduce (FloatOps.maximumf (F := Ideal) (φ := φ)) x init h' hu (ix2 p i)
      = (Finset.univ : Finset (Fin c)).fold max (init (Shape.Idx.first hu)) (fun j => x (ix3 p i j)) := by
  refine (Host.reduce_eq_fold_single (FloatOps.maximumf (F := Ideal) (φ := φ)) x init h' h hu (ix2 p i)).trans ?_
  have e : (x ∘ h.lift (ix2 p i)) = fun j : Fin c => x (ix3 p i j) := funext fun j => congrArg x (lift_row3 h p i j)
  rw [e]
  rfl

/-! ## The composite -/

/-- The f32 pattern of -∞, which every maximum here starts from. -/
abbrev negInf : EReal := Ideal.ofBits .f32 0xFF800000#32

/-- A row's maximum as the program takes it: the fold of `max` from -∞ over the row, joined with -∞ once more. -/
def rowTop (r : Fin b → EReal) : EReal := max negInf ((Finset.univ : Finset (Fin b)).fold max negInf r)

/-- A row's softmax weight at column j: the exponential of the entry less the row's maximum, over the sum of the
    row's such exponentials (the extended reals' quotient). -/
def rowWeight (r : Fin b → EReal) (j : Fin b) : EReal :=
  Ideal.div (Ideal.exp (r j - rowTop r)) (∑ j' : Fin b, Ideal.exp (r j' - rowTop r))

section Program
variable (s : FVec Ideal ⟨2, ![a, b]⟩ .f32) (hr : (⟨2, ![a, b]⟩ : Shape).Reduces [1] ⟨1, ![a]⟩)
  (hc : (⟨1, ![a]⟩ : Shape).ShapeCasts ⟨2, ![a, 1]⟩) (hb : (⟨2, ![a, 1]⟩ : Shape).Broadcasts ⟨2, ![a, b]⟩)

/-- The vector of row maxima, in the program's operations. -/
def rowTopVec : FVec Ideal ⟨1, ![a]⟩ .f32 :=
  maximumf (broadcast ⟨1, ![a]⟩ (Scalar.ofBits .f32 0xFF800000#32))
    (multiReduction .maximumf [1] ⟨1, ![a]⟩ s 0xFF800000#32 hr (.inl rfl) rfl)

/-- The exponentials of the entries less their row's maximum, in the program's operations. -/
def expRows : FVec Ideal ⟨2, ![a, b]⟩ .f32 :=
  exp (subf s (broadcastTo ⟨2, ![a, b]⟩ (shapeCast ⟨2, ![a, 1]⟩ (rowTopVec s hr) hc) hb))

/-- Softmax along the rows, in the program's operations. -/
def softmaxRows : FVec Ideal ⟨2, ![a, b]⟩ .f32 :=
  divf (expRows s hr hc hb)
    (broadcastTo ⟨2, ![a, b]⟩ (shapeCast ⟨2, ![a, 1]⟩
      (multiReduction .add [1] ⟨1, ![a]⟩ (expRows s hr hc hb) 0x00000000#32 hr (.inl rfl) rfl) hc) hb)

theorem rowTopVec_apply (i : Fin a) : rowTopVec s hr (ix1 i) = rowTop fun j => s (ix2 i j) := by
  unfold rowTopVec rowTop
  exact congrArg (max negInf) (rowMax_apply s 0xFF800000#32 hr (.inl rfl) rfl i)

theorem expRows_apply (i : Fin a) (j : Fin b) :
    expRows s hr hc hb (ix2 i j) = Ideal.exp (s (ix2 i j) - rowTop fun j' => s (ix2 i j')) := by
  unfold expRows
  show Ideal.exp (s (ix2 i j) - broadcastTo ⟨2, ![a, b]⟩ (shapeCast ⟨2, ![a, 1]⟩ (rowTopVec s hr) hc) hb (ix2 i j)) = _
  rw [colBroadcast_apply, colCast_apply, rowTopVec_apply]

/-- Entry (i, j) of the program's softmax is row i's weight at column j. -/
theorem softmaxRows_apply (i : Fin a) (j : Fin b) :
    softmaxRows s hr hc hb (ix2 i j) = rowWeight (fun j' => s (ix2 i j')) j := by
  unfold softmaxRows rowWeight
  rw [divf_apply, colBroadcast_apply, colCast_apply]
  refine congrArg₂ Ideal.div (expRows_apply s hr hc hb i j) ?_
  refine (rowSum_apply (expRows s hr hc hb) 0x00000000#32 hr (.inl rfl) rfl i).trans ?_
  exact Finset.sum_congr rfl fun j' _ => expRows_apply s hr hc hb i j'

end Program

end Cert.Lib.SoftmaxRows

end
-- ==== Proof.RefAligned.lean ====
/-
  The reference's first result, read stage by stage, is the softmax-weighted combination of the feature rows with
  the weights normalised BEFORE the contraction.

  At (b, i, j) the logit is proj[b, i, j] times the score of (b, j): the score array [8, 2048, 1] is viewed as
  [8, 2048], then as [8, 1, 2048], then repeated along the middle axis, which puts score[b, j, 0] at (b, i, j).  The
  row maximum is a fold of max from -∞ over j, joined once more with -∞ (which changes nothing: -∞ is the least
  extended real).  The weights are exp (logit - maximum), their row sum starts from zero, each weight is divided by
  its row's sum, and the contraction with the features over j pairs weight (b, i, j) with feature (b, j, f).
-/
import proofs.«407050_j39771397161407_3_alg».proof.Proof.Gen.ReferenceIdeal.Read
import proofs.«407050_j39771397161407_3_alg».proof.Proof.Spec
import proofs.«407050_j39771397161407_3_alg».proof.Proof.LibSoftmaxRows

noncomputable section

namespace Cert.RefValue
open Idealize.ShloMosaic Idealize.ShloMosaic.ValueIdx Cert.Spec Cert.ReferenceIdeal Cert.ReferenceIdeal.Gen

namespace Aligned

/-! The reference's first result, read one stage at a time at an index given by its coordinates.  Every stage is
    the textbook operation on the extended reals, so the chain of stages is the softmax of the logits along the last
    axis, contracted with the features. -/

/-- The f32 pattern of -∞ denotes the least extended real: sign set, exponent all ones, significand zero. -/
theorem negInf_eq_bot : (Ideal.ofBits .f32 0xFF800000#32 : EReal) = ⊥ := by
  simp [Ideal.ofBits, Ideal.ieee]

variable (x0 : IScore → EReal) (x1 : IFeat → EReal) (x2 : IProj → EReal)

/-- The score, flattened to [8, 2048], viewed as [8, 1, 2048] and spread over the rows, is read at (b, i, j) at the
    score's (b, j, 0): the flat position b · 2048 + j splits back into b and j. -/
theorem scoreIdx (b : Fin 8) (i j : Fin 2048) :
    Read.idx_main_v0 (Read.idx_main_v1 (Read.idx_main_v2 (ix3 b i j))) = ix3 b j (0 : Fin 1) :=
  funext fun a => Fin.ext (by
    have hb := b.isLt
    have hj := j.isLt
    match a with
    | ⟨0, _⟩ => show (b.val * 2048 + j.val) / 2048 = b.val; omega
    | ⟨1, _⟩ => show (b.val * 2048 + j.val) / 1 % 2048 = j.val; omega
    | ⟨2, _⟩ => rfl)

/-- The product stage is the logit. -/
theorem v3_at (b : Fin 8) (i j : Fin 2048) :
    Read.val_main_v3 (F := Ideal) x0 x2 (ix3 b i j) = logit x0 x2 b i j := by
  rw [Read.val_main_v3_apply, Read.val_main_v2_apply, Read.val_main_v1_apply, Read.val_main_v0_apply, scoreIdx]
  rfl

/-- The reduction stage is, at row (b, i), the fold of max from -∞ over the row's logits. -/
theorem v4_at (b : Fin 8) (i : Fin 2048) :
    Read.val_main_v4 (F := Ideal) x0 x2 (ix2 b i)
      = (Finset.univ : Finset (Fin 2048)).fold max negInf (fun j => logit x0 x2 b i j) := by
  unfold Read.val_main_v4
  refine (Cert.Lib.SoftmaxRows.hostRowMax_apply (Read.val_main_v3 (F := Ideal) x0 x2) (Read.val_main_cst (F := Ideal))
    reducesTo_S8x2048x2048_S8x2048_d2 (by decide) h_S_ b i).trans ?_
  have e : (fun j : Fin 2048 => Read.val_main_v3 (F := Ideal) x0 x2 (ix3 b i j)) = fun j => logit x0 x2 b i j :=
    funext fun j => v3_at x0 x2 b i j
  rw [e]
  rfl

/-- Joining the row's maximum with -∞ once more changes nothing: -∞ is the least element. -/
theorem v6_at (b : Fin 8) (i : Fin 2048) :
    Read.val_main_v6 (F := Ideal) x0 x2 (ix2 b i) = rowTop x0 x2 b i := by
  rw [Read.val_main_v6_apply, Read.val_main_v5_apply, Read.val_main_cst_0_apply, v4_at]
  show max (Ideal.ofBits .f32 0xFF800000#32 : EReal) (rowTop x0 x2 b i) = rowTop x0 x2 b i
  rw [negInf_eq_bot]
  exact max_eq_right bot_le

/-- An [8, 2048] array viewed as [8, 2048, 1] and spread along the last axis is read at (b, i, j) at (b, i). -/
theorem rowIdx7 (b : Fin 8) (i j : Fin 2048) :
    Read.idx_main_v7 (Read.idx_main_v8 (ix3 b i j)) = ix2 b i :=
  funext fun a => Fin.ext (by match a with | ⟨0, _⟩ => rfl | ⟨1, _⟩ => rfl)

theorem rowIdx12 (b : Fin 8) (i j : Fin 2048) :
    Read.idx_main_v12 (Read.idx_main_v13 (ix3 b i j)) = ix2 b i :=
  funext fun a => Fin.ext (by match a with | ⟨0, _⟩ => rfl | ⟨1, _⟩ => rfl)

/-- The row's maximum, spread back over the row. -/
theorem v8_at (b : Fin 8) (i j : Fin 2048) :
    Read.val_main_v8 (F := Ideal) x0 x2 (ix3 b i j) = rowTop x0 x2 b i := by
  rw [Read.val_main_v8_apply, Read.val_main_v7_apply, rowIdx7, v6_at]

/-- The exponential stage is the unnormalised weight. -/
theorem v10_at (b : Fin 8) (i j : Fin 2048) :
    Read.val_main_v10 (F := Ideal) x0 x2 (ix3 b i j) = ew x0 x2 b i j := by
  rw [Read.val_main_v10_apply, Read.val_main_v9_apply, v3_at, v8_at]
  rfl

/-- The summing stage's index at row (b, i) and column k. -/
theorem sumIdx (b : Fin 8) (i k : Fin 2048) : Read.idx_main_v11 (ix2 b i) k = ix3 b i k :=
  funext fun a => Fin.ext (by match a with | ⟨0, _⟩ => rfl | ⟨1, _⟩ => rfl | ⟨2, _⟩ => rfl)

/-- The summing stage is the row sum of the weights: its initial value is zero. -/
theorem v11_at (b : Fin 8) (i : Fin 2048) :
    Read.val_main_v11 (F := Ideal) x0 x2 (ix2 b i) = den x0 x2 b i := by
  rw [Read.val_main_v11_apply, Read.val_main_cst_1_apply]
  show (Ideal.ofBits .f32 0x00000000#32 : EReal) + _ = _
  rw [Ideal.ofBits_zero_f32, zero_add]
  exact Finset.sum_congr rfl fun k _ => by rw [sumIdx, v10_at]

/-- The row sum, spread back over the row. -/
theorem v13_at (b : Fin 8) (i j : Fin 2048) :
    Read.val_main_v13 (F := Ideal) x0 x2 (ix3 b i j) = den x0 x2 b i := by
  rw [Read.val_main_v13_apply, Read.val_main_v12_apply, rowIdx12, v11_at]

/-- The quotient stage is the normalised weight. -/
theorem v14_at (b : Fin 8) (i j : Fin 2048) :
    Read.val_main_v14 (F := Ideal) x0 x2 (ix3 b i j) = Ideal.div (ew x0 x2 b i j) (den x0 x2 b i) := by
  rw [Read.val_main_v14_apply, v10_at, v13_at]
  rfl

/-- The contraction's two indices at (b, i, f) and column k. -/
theorem lhsIdx (b : Fin 8) (i : Fin 2048) (f : Fin 128) (k : Fin 2048) :
    Read.lidx_main_v15 (ix3 b i f) k = ix3 b i k :=
  funext fun a => Fin.ext (by match a with | ⟨0, _⟩ => rfl | ⟨1, _⟩ => rfl | ⟨2, _⟩ => rfl)

theorem rhsIdx (b : Fin 8) (i : Fin 2048) (f : Fin 128) (k : Fin 2048) :
    Read.ridx_main_v15 (ix3 b i f) k = ix3 b k f :=
  funext fun a => Fin.ext (by match a with | ⟨0, _⟩ => rfl | ⟨1, _⟩ => rfl | ⟨2, _⟩ => rfl)

/-- The contraction with the features, at (b, i, f). -/
theorem v15_at (b : Fin 8) (i : Fin 2048) (f : Fin 128) :
    Read.val_main_v15 (F := Ideal) x0 x1 x2 (ix3 b i f) = alignedPre x0 x1 x2 (ix3 b i f) := by
  rw [Read.val_main_v15_apply]
  show _ = ∑ j : Fin 2048, Ideal.div (ew x0 x2 b i j) (den x0 x2 b i) * x1 (ix3 b j f)
  exact Finset.sum_congr rfl fun k _ => by rw [lhsIdx, rhsIdx, v14_at]

end Aligned

theorem ref_aligned (x0 : IScore → EReal) (x1 : IFeat → EReal) (x2 : IProj → EReal) :
    Cert.ReferenceIdeal.Read.val_main_v15 (F := Ideal) x0 x1 x2 = alignedPre x0 x1 x2 := by
  funext y
  have e : y = ix3 (y 0 : Fin 8) (y 1 : Fin 2048) (y 2 : Fin 128) := eq_ix3 y
  exact (congrArg (Read.val_main_v15 (F := Ideal) x0 x1 x2) e).trans
    ((Aligned.v15_at x0 x1 x2 (y 0) (y 1) (y 2)).trans (congrArg (alignedPre x0 x1 x2) e).symm)

end Cert.RefValue
end
-- ==== Proof.RefLoss.lean ====
/-
  The reference's second result, the scalar loss, is the mean over the 8 · 2044 windows of 1 - cos, with cos taken
  factor by factor.

  Three facts carry it.  (1) The positions the reference computes for its two gathers: at (n, k), n < 2044, k < 5,
  the 32-bit word of n plus the word of k is the word of n + k, which is small and so not negative as a signed
  word; the branch that would add 2048 to a negative position is never taken, and the position is the word of
  n + k.  (2) A gather of the table [8, 2048, 128] along its middle axis at such positions, whole on the outer
  axes: entry (b, n, k, f) of the result is the table's entry (b, n + k, f); the start n + k ≤ 2047 is already
  inside the table, so clamping leaves it alone.  (3) Flattening the last two axes [5, 128] to 640 sends flat
  position q to row q / 128 and feature q % 128.  Together: position q of the flattened window (b, n) of a table
  X is X at (b, n + q / 128, q % 128).

  On top of that the arithmetic is read off stage by stage: each norm is the root of the sum over the 640
  positions of the squares (the sum's initial value is zero), clamped below by ε; each entry is divided by its
  window's norm; the 640 products are summed; the result is subtracted from one; all windows are summed and the
  total divided by the count 16352.
-/
import proofs.«407050_j39771397161407_3_alg».proof.Proof.Gen.ReferenceIdeal.Read
import proofs.«407050_j39771397161407_3_alg».proof.Proof.Spec
import Idealize.ShloMosaic.Lib.StableHlo.Predicate

noncomputable section

namespace Cert.RefValue
open Idealize.ShloMosaic Idealize.ShloMosaic.ValueIdx Cert.Spec Cert.ReferenceIdeal Cert.ReferenceIdeal.Gen

/-- THE WINDOW GATHER READ AT AN ENTRY.  For any table X over [8, 2048, 128] and any array of positions over
    [2044, 5, 1] whose entry (n, k, 0) is the word of n + k, entry (b, n, k, f) of the gather is X at
    (b, n + k, f).  Axis by axis: on the outer axes 0 and 2 the slice is whole, the start is zero and the offset is
    the result's own coordinate; on axis 1 the slice has extent one, the offset is zero, and the start is the
    position read signed and clamped to at most 2047, which n + k does not exceed. -/
theorem gather_window (X : IFeat → EReal) (I : S2044x5x1.Idx → BitVec 32)
    (hI : ∀ (n : Fin 2044) (k : Fin 5), I (ix3 n k (0 : Fin 1)) = BitVec.ofNat 32 (n.val + k.val))
    (b : Fin 8) (n : Fin 2044) (k : Fin 5) (f : Fin 128) :
    Host.gather gather_S8x2048x128_S2044x5x1_S8x2044x5x128_03_1_n_n_1_2_81128 X I (ix4 b n k f) = X (ix3 b (wrow n k) f) := by
  unfold Host.gather
  congr 1
  funext a
  refine Fin.ext ?_
  match a with
  | ⟨0, _⟩ =>
    show (gather_S8x2048x128_S2044x5x1_S8x2044x5x128_03_1_n_n_1_2_81128).start (ix4 b n k f) I 0 + (gather_S8x2048x128_S2044x5x1_S8x2044x5x128_03_1_n_n_1_2_81128).batchCoord (ix4 b n k f) 0 + (gather_S8x2048x128_S2044x5x1_S8x2044x5x128_03_1_n_n_1_2_81128).offCoord (ix4 b n k f) 0 = b.val
    rw [GatherDims.batchCoord_eq_zero _ _ _ List.not_mem_nil]
    unfold GatherDims.start
    rw [dif_neg (show ¬ (0 : Fin 3) ∈ (gather_S8x2048x128_S2044x5x1_S8x2044x5x128_03_1_n_n_1_2_81128).startIndexMap from by decide)]
    unfold GatherDims.offCoord
    rw [dif_pos (show (0 : Fin 3) ∈ (gather_S8x2048x128_S2044x5x1_S8x2044x5x128_03_1_n_n_1_2_81128).sKept from by decide)]
    simp only [Nat.zero_add, Nat.add_zero]
    rfl
  | ⟨1, _⟩ =>
    show (gather_S8x2048x128_S2044x5x1_S8x2044x5x128_03_1_n_n_1_2_81128).start (ix4 b n k f) I 1 + (gather_S8x2048x128_S2044x5x1_S8x2044x5x128_03_1_n_n_1_2_81128).batchCoord (ix4 b n k f) 1 + (gather_S8x2048x128_S2044x5x1_S8x2044x5x128_03_1_n_n_1_2_81128).offCoord (ix4 b n k f) 1 = n.val + k.val
    rw [GatherDims.batchCoord_eq_zero _ _ _ List.not_mem_nil,
      GatherDims.offCoord_eq_zero _ _ _ (show ¬ (1 : Fin 3) ∈ (gather_S8x2048x128_S2044x5x1_S8x2044x5x128_03_1_n_n_1_2_81128).sKept from by decide)]
    simp only [Nat.add_zero]
    unfold GatherDims.start
    rw [dif_pos (show (1 : Fin 3) ∈ (gather_S8x2048x128_S2044x5x1_S8x2044x5x128_03_1_n_n_1_2_81128).startIndexMap from by decide)]
    have hsi : (gather_S8x2048x128_S2044x5x1_S8x2044x5x128_03_1_n_n_1_2_81128).siIdx (ix4 b n k f) ⟨List.idxOf (1 : Fin 3) (gather_S8x2048x128_S2044x5x1_S8x2044x5x128_03_1_n_n_1_2_81128).startIndexMap,
        List.idxOf_lt_length_iff.2 (by decide)⟩ = ix3 n k (0 : Fin 1) := by
      funext c; refine Fin.ext ?_
      match c with
      | ⟨0, _⟩ => rfl
      | ⟨1, _⟩ => rfl
      | ⟨2, _⟩ => rfl
    rw [hsi, hI n k, StableHlo.Predicate.toInt_ofNat_small _ (by have := n.isLt; have := k.isLt; omega)]
    have := n.isLt; have := k.isLt
    show min ((n.val + k.val : Nat) : Int).toNat (2048 - 1) = n.val + k.val
    rw [Int.toNat_natCast]; omega
  | ⟨2, _⟩ =>
    show (gather_S8x2048x128_S2044x5x1_S8x2044x5x128_03_1_n_n_1_2_81128).start (ix4 b n k f) I 2 + (gather_S8x2048x128_S2044x5x1_S8x2044x5x128_03_1_n_n_1_2_81128).batchCoord (ix4 b n k f) 2 + (gather_S8x2048x128_S2044x5x1_S8x2044x5x128_03_1_n_n_1_2_81128).offCoord (ix4 b n k f) 2 = f.val
    rw [GatherDims.batchCoord_eq_zero _ _ _ List.not_mem_nil]
    unfold GatherDims.start
    rw [dif_neg (show ¬ (2 : Fin 3) ∈ (gather_S8x2048x128_S2044x5x1_S8x2044x5x128_03_1_n_n_1_2_81128).startIndexMap from by decide)]
    unfold GatherDims.offCoord
    rw [dif_pos (show (2 : Fin 3) ∈ (gather_S8x2048x128_S2044x5x1_S8x2044x5x128_03_1_n_n_1_2_81128).sKept from by decide)]
    simp only [Nat.zero_add, Nat.add_zero]
    rfl

/-- The 32-bit word of a small sum n + k is not negative, so the wrap-around branch (add 2048 to a negative
    position) is never taken and the selected word is the word of n + k itself. -/
theorem pick_word (n : Fin 2044) (k : Fin 5) (c : BitVec 32) :
    Scalar.select (IntOp.cmpi .slt (IntOp.addi (BitVec.ofNat 32 n.val) (BitVec.ofNat 32 k.val)) 0#32)
      (IntOp.addi (IntOp.addi (BitVec.ofNat 32 n.val) (BitVec.ofNat 32 k.val)) c)
      (IntOp.addi (BitVec.ofNat 32 n.val) (BitVec.ofNat 32 k.val)) = BitVec.ofNat 32 (n.val + k.val) := by
  have hn := n.isLt
  have hk := k.isLt
  have hadd : IntOp.addi (BitVec.ofNat 32 n.val) (BitVec.ofNat 32 k.val) = BitVec.ofNat 32 (n.val + k.val) := by
    show BitVec.ofNat 32 n.val + BitVec.ofNat 32 k.val = _
    rw [← BitVec.ofNat_add]
  rw [hadd]
  have hval : (BitVec.ofNat 32 (n.val + k.val)).toNat = n.val + k.val := by
    rw [BitVec.toNat_ofNat]; exact Nat.mod_eq_of_lt (by omega)
  have hne : ¬ IntOp.cmpi .slt (BitVec.ofNat 32 (n.val + k.val)) 0#32 = 1#1 := by
    intro h
    have := (StableHlo.Predicate.slt_iff_toNat (a := BitVec.ofNat 32 (n.val + k.val)) (b := 0#32)
      (by rw [hval]; omega) (by decide)).1 h
    simp at this
  rw [eq_zero_of_ne_one hne, select_zero]

/-- The positions of the first gather. -/
theorem word_v28 (n : Fin 2044) (k : Fin 5) :
    Read.val_main_v28 (F := Ideal) (ix3 n k (0 : Fin 1)) = BitVec.ofNat 32 (n.val + k.val) := by
  rw [Read.val_main_v28_apply, Read.val_main_v27_apply, Read.val_main_v24_apply, Read.val_main_v26_apply,
    Read.val_main_v22_apply, Read.val_main_v20_apply, Read.val_main_v21_apply, Read.val_main_v17_apply,
    Read.val_main_v19_apply, Read.val_main_v16_apply, Read.val_main_v18_apply, Read.val_main_v23_apply,
    Read.val_main_c_apply]
  exact pick_word n k _

/-- The positions of the second gather: the same computation again. -/
theorem word_v36 (n : Fin 2044) (k : Fin 5) :
    Read.val_main_v36 (F := Ideal) (ix3 n k (0 : Fin 1)) = BitVec.ofNat 32 (n.val + k.val) := by
  rw [Read.val_main_v36_apply, Read.val_main_v35_apply, Read.val_main_v32_apply, Read.val_main_v34_apply,
    Read.val_main_v22_apply, Read.val_main_v20_apply, Read.val_main_v21_apply, Read.val_main_v17_apply,
    Read.val_main_v19_apply, Read.val_main_v16_apply, Read.val_main_v18_apply, Read.val_main_v31_apply,
    Read.val_main_c_3_apply]
  exact pick_word n k _

/-- Splitting the flat position q < 640 of a window into its row q / 128 and feature q % 128 is what the
    reshape of [8, 2044, 5, 128] to [8, 2044, 640] does to an index. -/
theorem unflatten_idx (b : Fin 8) (n : Fin 2044) (q : Fin 640) :
    Read.idx_main_v30 (ix3 b n q)
      = ix4 b n (⟨q.val / 128, by have := q.isLt; omega⟩ : Fin 5) (⟨q.val % 128, Nat.mod_lt _ (by norm_num)⟩ : Fin 128) := by
  have hb := b.isLt
  have hn := n.isLt
  have hq := q.isLt
  funext a
  refine Fin.ext ?_
  match a with
  | ⟨0, _⟩ => show ((b.val * 2044 + n.val) * 640 + q.val) / 1308160 = b.val; omega
  | ⟨1, _⟩ => show ((b.val * 2044 + n.val) * 640 + q.val) / 640 % 2044 = n.val; omega
  | ⟨2, _⟩ => show ((b.val * 2044 + n.val) * 640 + q.val) / 128 % 5 = q.val / 128; omega
  | ⟨3, _⟩ => show ((b.val * 2044 + n.val) * 640 + q.val) % 128 = q.val % 128; omega

/-- The flattened window of the feature table. -/
theorem flat_feature (x1 : IFeat → EReal) (b : Fin 8) (n : Fin 2044) (q : Fin 640) :
    Read.val_main_v30 (F := Ideal) x1 (ix3 b n q) = wflat x1 b n q := by
  rw [Read.val_main_v30_apply, unflatten_idx]
  unfold Read.val_main_v29
  exact gather_window x1 _ word_v28 b n _ _

/-- The flattened window of the reference's first result. -/
theorem flat_aligned (x0 : IScore → EReal) (x1 : IFeat → EReal) (x2 : IProj → EReal) (b : Fin 8) (n : Fin 2044)
    (q : Fin 640) :
    Read.val_main_v38 (F := Ideal) x0 x1 x2 (ix3 b n q)
      = wflat (Read.val_main_v15 (F := Ideal) x0 x1 x2) b n q := by
  rw [Read.val_main_v38_apply]
  rw [show Read.idx_main_v38 (ix3 b n q) = Read.idx_main_v30 (ix3 b n q) from rfl, unflatten_idx]
  unfold Read.val_main_v37
  exact gather_window _ _ word_v36 b n _ _

/-- The clamped norm of the feature window. -/
theorem norm_feature (x1 : IFeat → EReal) (b : Fin 8) (n : Fin 2044) :
    Read.val_main_v41 (F := Ideal) x1 (ix3 b n (0 : Fin 1)) = wnorm x1 b n := by
  rw [Read.val_main_v41_apply, Read.val_main_v39_apply, Read.val_main_v40_apply, Read.val_main_cst_5_apply,
    Read.val_main_call0_v2_apply, Read.val_main_call0_v1_apply, Read.val_main_call0_cst_apply]
  rw [Ideal.hostUnary_sqrt_def, Ideal.maximumf_def, Ideal.ofBits_def, Ideal.ofBits_def, Ideal.ofBits_zero_f32, zero_add]
  unfold wnorm
  refine congrArg (fun s => max (Ideal.sqrt s) epsF) (Finset.sum_congr rfl fun q _ => ?_)
  rw [Read.val_main_call0_v0_apply, Ideal.mulf_def]
  rw [show Read.idx_main_call0_v1 (Read.idx_main_call0_v2 (ix3 b n (0 : Fin 1))) q = ix3 b n q from by
    funext a; match a with | ⟨0, _⟩ => rfl | ⟨1, _⟩ => rfl | ⟨2, _⟩ => rfl]
  rw [flat_feature]

/-- The clamped norm of the window of the first result. -/
theorem norm_aligned (x0 : IScore → EReal) (x1 : IFeat → EReal) (x2 : IProj → EReal) (b : Fin 8) (n : Fin 2044) :
    Read.val_main_v46 (F := Ideal) x0 x1 x2 (ix3 b n (0 : Fin 1))
      = wnorm (Read.val_main_v15 (F := Ideal) x0 x1 x2) b n := by
  rw [Read.val_main_v46_apply, Read.val_main_v44_apply, Read.val_main_v45_apply, Read.val_main_cst_6_apply,
    Read.val_main_call1_v2_apply, Read.val_main_call1_v1_apply, Read.val_main_call1_cst_apply]
  rw [Ideal.hostUnary_sqrt_def, Ideal.maximumf_def, Ideal.ofBits_def, Ideal.ofBits_def, Ideal.ofBits_zero_f32, zero_add]
  unfold wnorm
  refine congrArg (fun s => max (Ideal.sqrt s) epsF) (Finset.sum_congr rfl fun q _ => ?_)
  rw [Read.val_main_call1_v0_apply, Ideal.mulf_def]
  rw [show Read.idx_main_call1_v1 (Read.idx_main_call1_v2 (ix3 b n (0 : Fin 1))) q = ix3 b n q from by
    funext a; match a with | ⟨0, _⟩ => rfl | ⟨1, _⟩ => rfl | ⟨2, _⟩ => rfl]
  rw [flat_aligned]

/-- One window's cosine: the sum over the 640 positions of the product of the two normalised entries. -/
theorem cos_window (x0 : IScore → EReal) (x1 : IFeat → EReal) (x2 : IProj → EReal) (b : Fin 8) (n : Fin 2044) :
    Read.val_main_v50 (F := Ideal) x0 x1 x2 (ix2 b n)
      = cosEach x1 (Read.val_main_v15 (F := Ideal) x0 x1 x2) b n := by
  rw [Read.val_main_v50_apply, Read.val_main_cst_7_apply, Ideal.ofBits_def, Ideal.ofBits_zero_f32, zero_add]
  unfold cosEach
  refine Finset.sum_congr rfl fun q _ => ?_
  rw [show Read.idx_main_v50 (ix2 b n) q = ix3 b n q from by
    funext a; match a with | ⟨0, _⟩ => rfl | ⟨1, _⟩ => rfl | ⟨2, _⟩ => rfl]
  rw [Read.val_main_v49_apply, Read.val_main_v43_apply, Read.val_main_v48_apply, Read.val_main_v42_apply,
    Read.val_main_v47_apply, Ideal.mulf_def, Ideal.hostDivf_def, Ideal.hostDivf_def]
  rw [show Read.idx_main_v42 (ix3 b n q) = ix3 b n (0 : Fin 1) from by
    funext a; match a with | ⟨0, _⟩ => rfl | ⟨1, _⟩ => rfl | ⟨2, _⟩ => rfl]
  rw [show Read.idx_main_v47 (ix3 b n q) = ix3 b n (0 : Fin 1) from by
    funext a; match a with | ⟨0, _⟩ => rfl | ⟨1, _⟩ => rfl | ⟨2, _⟩ => rfl]
  rw [flat_feature, flat_aligned, norm_feature, norm_aligned]

theorem ref_loss (x0 : IScore → EReal) (x1 : IFeat → EReal) (x2 : IProj → EReal) :
    Cert.ReferenceIdeal.Read.val_main_v54 (F := Ideal) x0 x1 x2
      = fun _ => meanLoss (cosEach x1 (Cert.ReferenceIdeal.Read.val_main_v15 (F := Ideal) x0 x1 x2)) := by
  funext i
  rw [Read.val_main_v54_apply, Read.val_main_v53_apply, Read.val_main_cst_10_apply, Read.val_main_cst_9_apply,
    Ideal.hostDivf_def, Ideal.ofBits_def, Ideal.ofBits_def, Ideal.ofBits_zero_f32, zero_add]
  unfold meanLoss
  refine congrArg (fun s => Ideal.div s cntF) (Finset.sum_congr rfl fun y _ => ?_)
  obtain ⟨b, n, rfl⟩ : ∃ (b : Fin 8) (n : Fin 2044), y = ix2 b n := ⟨y 0, y 1, eq_ix2 (n0 := 8) (n1 := 2044) y⟩
  rw [Read.val_main_v52_apply, Read.val_main_v51_apply, Read.val_main_cst_8_apply, Ideal.subf_def, Ideal.ofBits_def,
    cos_window]

end Cert.RefValue
end
-- ==== Proof.KernelPay.lean ====
/-
  The kernel body's stored values, read at one index, at the ideal values.

  One grid point holds 512 rows of one batch: a [1, 512, 2048] block p of proj, the batch's [1, 1, 2048] row s of
  scores and its [1, 2048, 128] block g of features.  The body forms the logits p[r, j] · s[j], takes each row's
  maximum from -∞, exponentiates the shifted logits, and contracts these unnormalised weights with g over j; the result
  is scaled by 1 / (row sum of the weights).  The change of the two factors to a 16-bit format before the contraction
  is the identity on extended reals, and the contraction starts from a zero accumulator, so entry (r, f) of the stored
  block is

      (∑ j, e r j · g[j, f]) · (1 / ∑ j, e r j),      e r j = exp (p[r, j] · s[j] - max over j),

  which is the shared vocabulary's blkAligned.  The three packed per-row sums are each a sum over the 128 features of
  a product of two [512, 128] arrays, viewed as a column and stored as a [1, 512, 1] block.
-/
import proofs.«407050_j39771397161407_3_alg».proof.Proof.Gen.KernelIdeal.Skeleton
import proofs.«407050_j39771397161407_3_alg».proof.Proof.Spec
import proofs.«407050_j39771397161407_3_alg».proof.Proof.LibSoftmaxRows
import Idealize.ShloMosaic.PureOps.Ideal.Laws
import Idealize.ShloMosaic.Lib.ValueIdx
import Idealize.ShloMosaic.Lib.ValueLayout
import Idealize.ShloMosaic.Lib.Pipeline.Value

noncomputable section

namespace Cert.KernelPay
open Idealize.ShloMosaic Idealize.ShloMosaic.ValueIdx Cert.Spec Cert.KernelIdeal Cert.KernelIdeal.Gen

/-! ## The contraction's operand indices, axis by axis

The contraction pairs axis 1 of a [512, 2048] array with axis 0 of a [2048, 128] array and has no batch axis.  At output
index i and contraction position q, the left operand is read at (i 0, q) and the right one at (q, i 1). -/

theorem lhs_dot_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs_dot_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhs_dot_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs_dot_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The contraction into a zero accumulator reads, at (r, f), the sum over the shared axis of the products of the left
    operand's row r with the right operand's column f: the sum over contraction positions is re-indexed by the
    position's one coordinate. -/
theorem matmul_at (A : FVec Ideal S512x2048 .bf16) (B : FVec Ideal S2048x128 .bf16) (r : Fin 512) (f : Fin 128) :
    matmul dot_S512x2048_S2048x128_S512x128_1_0_0_1_n_n none A B (constant S512x128 .f32 0x00000000#32) (ix2 r f)
      = ∑ k : Fin 2048, A (ix2 r k) * B (ix2 k f) := by
  simp only [matmul]
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 r f) ((contrEquiv1 dot_S512x2048_S2048x128_S512x128_1_0_0_1_n_n 2048 rfl rfl).symm k) = ix2 r k := funext fun a => Fin.ext (by
    match a with
    | ⟨0, _⟩ => exact lhs_dot_0 _ _
    | ⟨1, _⟩ => exact (lhs_dot_1 _ _).trans hk)
  have er : dot_S512x2048_S2048x128_S512x128_1_0_0_1_n_n.rhsIdx (ix2 r f) ((contrEquiv1 dot_S512x2048_S2048x128_S512x128_1_0_0_1_n_n 2048 rfl rfl).symm k) = ix2 k f := funext fun a => Fin.ext (by
    match a with
    | ⟨0, _⟩ => exact (rhs_dot_0 _ _).trans hk
    | ⟨1, _⟩ => exact rhs_dot_1 _ _)
  rw [el, er]

/-! ## The softmax-weighted contraction, stage by stage -/

section Stages
variable (v0 : Vec Ideal S1x512x2048 .f32) (v2 : Vec Ideal S1x1x2048 .f32) (v16 : Vec Ideal S1x2048x128 .f32)

/-- The block of logits in the body's operations: the proj block viewed as [512, 2048], times the score row repeated
    down the 512 rows. -/
def logits : FVec Ideal S512x2048 .f32 :=
  mulf (shapeCast S512x2048 v0 shapeCasts_S1x512x2048_S512x2048)
    (broadcastTo S512x2048 (shapeCast S1x2048 v2 shapeCasts_S1x1x2048_S1x2048) broadcasts_S1x2048_S512x2048)

/-- Entry (r, j) of it is the logit of local row r at column j. -/
theorem logits_apply (r : Fin 512) (j : Fin 2048) : logits v0 v2 (ix2 r j) = blkLogit v0 v2 r j := by
  unfold logits blkLogit
  rw [mulf_apply, shapeCast_1ab_ab_apply, broadcastTo_1b_ab_apply, shapeCast_1ab_ab_apply]

/-- The unnormalised weights in the body's operations: each logit less its row's maximum (the vector of maxima viewed
    as a column and repeated across the row), exponentiated. -/
def expw : FVec Ideal S512x2048 .f32 :=
  exp (subf (logits v0 v2)
    (broadcastTo S512x2048 (shapeCast S512x1
      (multiReduction .maximumf [1] S512 (logits v0 v2) 0xFF800000#32 reduces_S512x2048_S512 (.inl rfl) rfl)
      shapeCasts_S512_S512x1) broadcasts_S512x1_S512x2048))

/-- Entry (r, j) of them is exp (logit r j - row r's maximum), the maximum a fold of max from -∞ over the row. -/
theorem expw_apply (r : Fin 512) (j : Fin 2048) : expw v0 v2 (ix2 r j) = blkE v0 v2 r j := by
  unfold expw blkE blkTop
  show Ideal.exp (logits v0 v2 (ix2 r j) - broadcastTo S512x2048 (shapeCast S512x1 _ _) _ (ix2 r j)) = _
  rw [Cert.Lib.SoftmaxRows.colBroadcast_apply, Cert.Lib.SoftmaxRows.colCast_apply, logits_apply]
  refine congrArg (fun t => Ideal.exp (blkLogit v0 v2 r j - t)) ?_
  refine (Cert.Lib.SoftmaxRows.rowMax_apply (logits v0 v2) 0xFF800000#32 reduces_S512x2048_S512 (.inl rfl) rfl r).trans ?_
  have e : (fun j => logits v0 v2 (ix2 r j)) = fun j => blkLogit v0 v2 r j := funext fun j => logits_apply v0 v2 r j
  rw [e]

/-- The [512, 128] value the body stores and reuses is the contraction of the weights with the feature block viewed as
    [2048, 128] (both through a format change that is the identity here), times the reciprocal of the row sum of the
    weights repeated across the 128 features. -/
theorem pay4_eq : k0_pay4 (F := Ideal) v0 v2 v16
    = mulf (matmul dot_S512x2048_S2048x128_S512x128_1_0_0_1_n_n none (truncf .bf16 (expw v0 v2) bitsLt_bf16_f32)
        (truncf .bf16 (shapeCast S2048x128 v16 shapeCasts_S1x2048x128_S2048x128) bitsLt_bf16_f32)
        (constant S512x128 .f32 0x00000000#32))
      (broadcastTo S512x128 (divf (broadcast S512x1 (Scalar.ofBits .f32 0x3F800000#32))
        (shapeCast S512x1 (multiReduction .add [1] S512 (expw v0 v2) 0x00000000#32 reduces_S512x2048_S512 (.inl rfl) rfl)
          shapeCasts_S512_S512x1)) broadcasts_S512x1_S512x128) := rfl

/-- Entry (r, f) of it is local row r of aligned at feature f. -/
theorem pay4_apply (r : Fin 512) (f : Fin 128) :
    k0_pay4 (F := Ideal) v0 v2 v16 (ix2 r f) = blkAligned v0 v2 v16 r f := by
  rw [pay4_eq]
  unfold blkAligned
  rw [mulf_apply, matmul_at, Cert.Lib.SoftmaxRows.colBroadcast_apply, divf_apply, broadcast_apply,
    Cert.Lib.SoftmaxRows.colCast_apply]
  refine congrArg₂ (· * ·) (Finset.sum_congr rfl fun k _ => ?_)
    (congrArg₂ Ideal.div rfl
      ((Cert.Lib.SoftmaxRows.rowSum_apply (expw v0 v2) 0x00000000#32 reduces_S512x2048_S512 (.inl rfl) rfl r).trans
        (Finset.sum_congr rfl fun j _ => expw_apply v0 v2 r j)))
  rw [truncf_apply, truncf_apply, expw_apply, shapeCast_1ab_ab_apply]

end Stages

/-! ## The per-row sums over the features -/

/-- A [1, 512, 128] block viewed as [512, 128] reads (0, r, f) at (r, f). -/
theorem pay6_apply (v28 : Vec Ideal S1x512x128 .f32) (r : Fin 512) (f : Fin 128) :
    k0_pay6 (F := Ideal) v28 (ix2 r f) = v28 (ix3 (0 : Fin 1) r f) :=
  shapeCast_1ab_ab_apply v28 shapeCasts_S1x512x128_S512x128 r f

/-- The sum over the 128 features of the product of two [512, 128] arrays, viewed as a [512, 1] column and then as a
    [1, 512, 1] block, reads at (0, r, 0) the sum over f of the two arrays' product at (r, f). -/
theorem laneDot_apply (X Y : FVec Ideal S512x128 .f32) (r : Fin 512) :
    shapeCast S1x512x1 (shapeCast S512x1
        (multiReduction .add [1] S512 (mulf X Y) 0x00000000#32 reduces_S512x128_S512 (.inl rfl) rfl)
        shapeCasts_S512_S512x1) shapeCasts_S512x1_S1x512x1 (ix3 (0 : Fin 1) r (0 : Fin 1))
      = ∑ f : Fin 128, X (ix2 r f) * Y (ix2 r f) := by
  rw [shapeCast_ab_1ab_apply, Cert.Lib.SoftmaxRows.colCast_apply]
  exact (Cert.Lib.SoftmaxRows.rowSum_apply (mulf X Y) 0x00000000#32 reduces_S512x128_S512 (.inl rfl) rfl r).trans
    (Finset.sum_congr rfl fun f _ => mulf_apply X Y (ix2 r f))

/-! ## The four stored values -/

theorem pay5_apply (v0 : Vec Ideal S1x512x2048 .f32) (v2 : Vec Ideal S1x1x2048 .f32) (v16 : Vec Ideal S1x2048x128 .f32)
    (r : Fin 512) (f : Fin 128) :
    k0_pay5 (F := Ideal) v0 v2 v16 (ix3 (0 : Fin 1) r f) = blkAligned v0 v2 v16 r f := by
  show shapeCast S1x512x128 (k0_pay4 (F := Ideal) v0 v2 v16) shapeCasts_S512x128_S1x512x128 (ix3 (0 : Fin 1) r f) = _
  rw [shapeCast_ab_1ab_apply]
  exact pay4_apply v0 v2 v16 r f

theorem pay1_apply (v28 : Vec Ideal S1x512x128 .f32) (r : Fin 512) :
    k0_pay1 (F := Ideal) (k0_pay7 v28) (ix3 (0 : Fin 1) r (0 : Fin 1))
      = ∑ f : Fin 128, v28 (ix3 (0 : Fin 1) r f) * v28 (ix3 (0 : Fin 1) r f) := by
  refine (laneDot_apply (k0_pay6 (F := Ideal) v28) (k0_pay6 (F := Ideal) v28) r).trans ?_
  exact Finset.sum_congr rfl fun f _ => by rw [pay6_apply]

theorem pay2_apply (v0 : Vec Ideal S1x512x2048 .f32) (v2 : Vec Ideal S1x1x2048 .f32) (v16 : Vec Ideal S1x2048x128 .f32)
    (r : Fin 512) :
    k0_pay2 (F := Ideal) (k0_pay8 v0 v2 v16) (ix3 (0 : Fin 1) r (0 : Fin 1))
      = ∑ f : Fin 128, blkAligned v0 v2 v16 r f * blkAligned v0 v2 v16 r f := by
  refine (laneDot_apply (k0_pay4 (F := Ideal) v0 v2 v16) (k0_pay4 (F := Ideal) v0 v2 v16) r).trans ?_
  exact Finset.sum_congr rfl fun f _ => by rw [pay4_apply]

theorem pay3_apply (v0 : Vec Ideal S1x512x2048 .f32) (v2 : Vec Ideal S1x1x2048 .f32) (v16 : Vec Ideal S1x2048x128 .f32)
    (v28 : Vec Ideal S1x512x128 .f32) (r : Fin 512) :
    k0_pay3 (F := Ideal) (k0_pay4 v0 v2 v16) (k0_pay6 v28) (ix3 (0 : Fin 1) r (0 : Fin 1))
      = ∑ f : Fin 128, v28 (ix3 (0 : Fin 1) r f) * blkAligned v0 v2 v16 r f := by
  refine (laneDot_apply (k0_pay6 (F := Ideal) v28) (k0_pay4 (F := Ideal) v0 v2 v16) r).trans ?_
  exact Finset.sum_congr rfl fun f _ => by rw [pay6_apply, pay4_apply]

end Cert.KernelPay
end
-- ==== Proof.KernelRegion.lean ====
/-
  What the kernel's one grid region leaves in its two output arrays, as functions of the three argument arrays.

  The grid is 8 × 4: point (b, q) handles rows [512 q, 512 q + 512) of batch b.  At that point the body finds the
  point's [1, 512, 2048] block of proj, batch b's [1, 1, 2048] row of scores (the score argument with its last two
  axes exchanged by two reshapes before the region) and batch b's whole [1, 2048, 128] block of features, of which it
  reads rows [512 q, 512 q + 512) a second time.  It stores the 512 aligned rows into the first output's block, and the
  three per-row sums (feature·feature, aligned·aligned, feature·aligned) into columns 0, 1, 2 of the second output's
  [1, 512, 3] block.  Each block's value is the matching part of ONE function of the arguments (`Spec.alignedPost`,
  `Spec.packed`), and the 32 blocks tile each output array: the point that covers row s of batch b is (b, s / 512).
-/
import proofs.«407050_j39771397161407_3_alg».proof.Proof.Gen.KernelIdeal.Frame
import proofs.«407050_j39771397161407_3_alg».proof.Proof.Spec
import proofs.«407050_j39771397161407_3_alg».proof.Proof.KernelPay
import Idealize.ShloMosaic.Lib.Pipeline.Value
import Idealize.ShloMosaic.Lib.Tactic

noncomputable section

namespace Cert.KernelRegion
open Idealize.ShloMosaic Idealize.ShloMosaic.TcCoe Idealize.ShloMosaic.ValueIdx Idealize.SL.Sem Cert.Spec Cert.KernelIdeal Cert.KernelIdeal.Gen

/-! ## What the body's stores leave in the two output blocks -/

section Pieces
variable {F : FTy → Type} [FloatOps F]

theorem zero3 : (![0, 0, 0] : Fin 3 → Nat) = fun _ => 0 := funext fun a => by fin_cases a <;> rfl

/-- The first output's block is stored once, whole: it holds that store's value, computed from the three input
    blocks as loaded. -/
theorem alignedBlock_eq (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x2048x128 .f32) (harg4 : arg4.IsWhole) (arg5 : Memref sig .tc .vmem S1x512x128 .f32) (harg5 : arg5.IsWhole) (arg6 : Memref sig .tc .vmem S1x512x3 .f32) (harg6 : arg6.IsWhole)
    (x0 : Vec F S1x512x2048 .f32) (x1 : Vec F S1x1x2048 .f32) (x2 : Vec F S1x2048x128 .f32) :
    out0_A_3 c i arg2 harg2 arg3 harg3 arg4 harg4 arg5 harg5 arg6 harg6 x0 x1 x2 = k0_pay5 x0 x1 x2 := by
  unfold out0_A_3
  rw [View.read_writes_eq_canon _ _ _ (cover0_A_3 c i arg2 harg2 arg3 harg3 arg4 harg4 arg5 harg5 arg6 harg6 x0 x1 x2)]
  unfold kernelRun0_A
  dsimp only
  sl_unfold_words
  rw [View.canon_unit_zero zero3]
  simp only [View.readAt_eq_ld, harg2.read_unread, harg3.read_unread, harg4.read_unread,
    View.ld_unit_zero (S := S1x512x2048) zero3, View.ld_unit_zero (S := S1x1x2048) zero3,
    View.ld_unit_zero (S := S1x2048x128) zero3]

/-- The 512 feature rows the body loads a second time, at the row offset its second grid coordinate gives. -/
abbrev ownRows (i : grid0.Coords) (x2 : Vec F S1x2048x128 .f32) : Vec F S1x512x128 .f32 :=
  View.ld x2 (Rect.unit (s := S1x2048x128) (k0_off1 i) S1x512x128.size (k0_off1_inb i))

/-- The three column stores into the second output's block, the last one first. -/
abbrev colStores (i : grid0.Coords) (x0 : Vec F S1x512x2048 .f32) (x1 : Vec F S1x1x2048 .f32) (x2 : Vec F S1x2048x128 .f32) :
    List (View.Piece (Elt F) S1x512x3 .f32) :=
  [⟨Rect.unit (s := S1x512x3) ![0, 0, 2] S1x512x1.size inb_S1x512x3_S1x512x1_0_0_2,
      k0_pay3 (k0_pay4 x0 x1 x2) (k0_pay6 (ownRows i x2))⟩,
    ⟨Rect.unit (s := S1x512x3) ![0, 0, 1] S1x512x1.size inb_S1x512x3_S1x512x1_0_0_1, k0_pay2 (k0_pay8 x0 x1 x2)⟩,
    ⟨Rect.unit (s := S1x512x3) ![0, 0, 0] S1x512x1.size inb_S1x512x3_S1x512x1_0_0_0, k0_pay1 (k0_pay7 (ownRows i x2))⟩]

/-- The second output's block holds what those three stores leave. -/
theorem packedBlock_eq (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x2048x128 .f32) (harg4 : arg4.IsWhole) (arg5 : Memref sig .tc .vmem S1x512x128 .f32) (harg5 : arg5.IsWhole) (arg6 : Memref sig .tc .vmem S1x512x3 .f32) (harg6 : arg6.IsWhole)
    (x0 : Vec F S1x512x2048 .f32) (x1 : Vec F S1x1x2048 .f32) (x2 : Vec F S1x2048x128 .f32) :
    out0_A_4 c i arg2 harg2 arg3 harg3 arg4 harg4 arg5 harg5 arg6 harg6 x0 x1 x2 = View.canon (colStores i x0 x1 x2) := by
  unfold out0_A_4
  rw [View.read_writes_eq_canon _ _ _ (cover0_A_4 c i arg2 harg2 arg3 harg3 arg4 harg4 arg5 harg5 arg6 harg6 x0 x1 x2)]
  unfold kernelRun0_A
  dsimp only
  sl_unfold_words
  simp only [View.readAt_eq_ld, harg2.read_unread, harg3.read_unread, harg4.read_unread,
    View.ld_unit_zero (S := S1x512x2048) zero3, View.ld_unit_zero (S := S1x1x2048) zero3,
    View.ld_unit_zero (S := S1x2048x128) zero3]
  rfl

end Pieces

/-! ## Three column stores read back -/

section Columns
variable {Val : EltTy → Type} [∀ e, Nonempty (Val e)]
variable (w2 w1 w0 : S1x512x1.Idx → Val .f32)

/-- Three stores of one column each, into columns 2, 1, 0 of a [1, 512, 3] block. -/
abbrev three : List (View.Piece Val S1x512x3 .f32) :=
  [⟨Rect.unit (s := S1x512x3) ![0, 0, 2] S1x512x1.size inb_S1x512x3_S1x512x1_0_0_2, w2⟩,
    ⟨Rect.unit (s := S1x512x3) ![0, 0, 1] S1x512x1.size inb_S1x512x3_S1x512x1_0_0_1, w1⟩,
    ⟨Rect.unit (s := S1x512x3) ![0, 0, 0] S1x512x1.size inb_S1x512x3_S1x512x1_0_0_0, w0⟩]

/-- Row r of the column stored at column k is entry (0, r, k) of the block. -/
theorem emb_col (k : ℕ) (hk : k < 3) (inb : ∀ a, (![0, 0, k] : Fin 3 → ℕ) a + S1x512x1.size a ≤ S1x512x3.size a) (r : Fin 512) :
    (Rect.unit (s := S1x512x3) ![0, 0, k] S1x512x1.size inb).emb (ix3 (0 : Fin 1) r (0 : Fin 1))
      = ix3 (0 : Fin 1) r (⟨k, hk⟩ : Fin 3) := by
  funext a; apply Fin.ext
  match a with
  | ⟨0, _⟩ => show 0 + 1 * (0 : Fin 1).val = (0 : Fin 1).val; simp
  | ⟨1, _⟩ => show 0 + 1 * r.val = r.val; omega
  | ⟨2, _⟩ => show k + 1 * (0 : Fin 1).val = k; simp

/-- An entry of column k is not under the store of another column. -/
theorem not_mem_col (k k' : ℕ) (hk : k < 3) (hne : k' ≠ k)
    (inb : ∀ a, (![0, 0, k'] : Fin 3 → ℕ) a + S1x512x1.size a ≤ S1x512x3.size a) (r : Fin 512) :
    ix3 (0 : Fin 1) r (⟨k, hk⟩ : Fin 3) ∉ (Rect.unit (s := S1x512x3) ![0, 0, k'] S1x512x1.size inb).set := by
  rw [Rect.mem_set_unit]
  intro h
  have h2 : k' ≤ k ∧ k < k' + 1 := h (2 : Fin 3)
  omega

theorem three_col2 (r : Fin 512) :
    View.canon (three w2 w1 w0) (ix3 (0 : Fin 1) r (⟨2, by omega⟩ : Fin 3)) = w2 (ix3 (0 : Fin 1) r (0 : Fin 1)) := by
  have e := View.canon_cons_emb (Val := Val) (Rect.unit (s := S1x512x3) ![0, 0, 2] S1x512x1.size inb_S1x512x3_S1x512x1_0_0_2) w2
    [⟨Rect.unit (s := S1x512x3) ![0, 0, 1] S1x512x1.size inb_S1x512x3_S1x512x1_0_0_1, w1⟩,
      ⟨Rect.unit (s := S1x512x3) ![0, 0, 0] S1x512x1.size inb_S1x512x3_S1x512x1_0_0_0, w0⟩] (ix3 (0 : Fin 1) r (0 : Fin 1))
  rw [emb_col 2 (by omega) inb_S1x512x3_S1x512x1_0_0_2 r] at e
  exact e

theorem three_col1 (r : Fin 512) :
    View.canon (three w2 w1 w0) (ix3 (0 : Fin 1) r (⟨1, by omega⟩ : Fin 3)) = w1 (ix3 (0 : Fin 1) r (0 : Fin 1)) := by
  have e := View.canon_cons_emb (Val := Val) (Rect.unit (s := S1x512x3) ![0, 0, 1] S1x512x1.size inb_S1x512x3_S1x512x1_0_0_1) w1
    [⟨Rect.unit (s := S1x512x3) ![0, 0, 0] S1x512x1.size inb_S1x512x3_S1x512x1_0_0_0, w0⟩] (ix3 (0 : Fin 1) r (0 : Fin 1))
  rw [emb_col 1 (by omega) inb_S1x512x3_S1x512x1_0_0_1 r] at e
  exact (View.canon_cons_of_not_mem
    (⟨Rect.unit (s := S1x512x3) ![0, 0, 2] S1x512x1.size inb_S1x512x3_S1x512x1_0_0_2, w2⟩ : View.Piece Val S1x512x3 .f32) _
    (not_mem_col 1 2 (by omega) (by omega) inb_S1x512x3_S1x512x1_0_0_2 r)).trans e

theorem three_col0 (r : Fin 512) :
    View.canon (three w2 w1 w0) (ix3 (0 : Fin 1) r (⟨0, by omega⟩ : Fin 3)) = w0 (ix3 (0 : Fin 1) r (0 : Fin 1)) := by
  have e := View.canon_cons_emb (Val := Val) (Rect.unit (s := S1x512x3) ![0, 0, 0] S1x512x1.size inb_S1x512x3_S1x512x1_0_0_0) w0
    [] (ix3 (0 : Fin 1) r (0 : Fin 1))
  rw [emb_col 0 (by omega) inb_S1x512x3_S1x512x1_0_0_0 r] at e
  exact (View.canon_cons_of_not_mem
    (⟨Rect.unit (s := S1x512x3) ![0, 0, 2] S1x512x1.size inb_S1x512x3_S1x512x1_0_0_2, w2⟩ : View.Piece Val S1x512x3 .f32) _
    (not_mem_col 0 2 (by omega) (by omega) inb_S1x512x3_S1x512x1_0_0_2 r)).trans
    ((View.canon_cons_of_not_mem
      (⟨Rect.unit (s := S1x512x3) ![0, 0, 1] S1x512x1.size inb_S1x512x3_S1x512x1_0_0_1, w1⟩ : View.Piece Val S1x512x3 .f32) _
      (not_mem_col 0 1 (by omega) (by omega) inb_S1x512x3_S1x512x1_0_0_1 r)).trans e)

end Columns

/-! ## Where each block sits in its array -/

section Geometry

/-- The five windows' block indices and the row offset of the second feature load at a grid point, all through the
    first output's two moving block coordinates (decided over the 32 points). -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_3.index t (0 : Fin 3) < 8 ∧ win0_3.index t (1 : Fin 3) < 4 ∧ win0_3.index t (2 : Fin 3) = 0
    ∧ k0_off1 (grid0.coords t) = ![0, 512 * win0_3.index t (1 : Fin 3), 0] :=
  (by decide +kernel : ∀ t : Fin grid0.N, _)

/-- Every (batch, row block) pair is some grid point's. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- An entry of the first output array is in point t's block iff each coordinate is in the block's range. -/
theorem mem_alignedBlk (t : Fin cfg0.N) (i : S8x2048x128.Idx) :
    i ∈ ((cfg0.win 3).blk t).view.set ↔ ∀ a : Fin 3, win0_3.index t a * S1x512x128.size a ≤ (i a).val
      ∧ (i a).val < win0_3.index t a * S1x512x128.size a + S1x512x128.size a := by
  show i ∈ ((View.whole main_v2_0).slice (win0_3.rect t)).set ↔ _
  rw [View.set_slice_whole, Rect.mem_set_unit]
  exact Iff.rfl

/-- The same for the second output array. -/
theorem mem_packedBlk (t : Fin cfg0.N) (i : S8x2048x3.Idx) :
    i ∈ ((cfg0.win 4).blk t).view.set ↔ ∀ a : Fin 3, win0_4.index t a * S1x512x3.size a ≤ (i a).val
      ∧ (i a).val < win0_4.index t a * S1x512x3.size a + S1x512x3.size a := by
  show i ∈ ((View.whole main_v2_1).slice (win0_4.rect t)).set ↔ _
  rw [View.set_slice_whole, Rect.mem_set_unit]
  exact Iff.rfl

/-- The first output's blocks cover its array: entry (b, s, ·) is in the block of the point (b, s / 512). -/
theorem cover_aligned (i : S8x2048x128.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 128 := (i 2).isLt
  obtain ⟨t, ht⟩ := idx_onto (i 0) ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_alignedBlk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- The second output's blocks cover its array, the same way. -/
theorem cover_packed (i : S8x2048x3.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 3 := (i 2).isLt
  obtain ⟨t, ht⟩ := idx_onto (i 0) ⟨(i 1).val / 512, by omega⟩
  obtain ⟨-, -, -, -, -, -, -, -, -, e0, e1, e2, -⟩ := idx_facts t
  have q0 : win0_3.index t (0 : Fin 3) = (i 0).val := congrFun ht 0
  have q1 : win0_3.index t (1 : Fin 3) = (i 1).val / 512 := congrFun ht 1
  refine ⟨t, flush0_4 t, ?_⟩
  rw [mem_packedBlk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 3 ≤ (i 2).val ∧ (i 2).val < win0_4.index t (2 : Fin 3) * 3 + 3; omega

end Geometry

/-! ## One block's rows are rows of the whole result -/

section Mathematics
variable (sc : IScore → EReal) (ft : IFeat → EReal) (pj : IProj → EReal)

/-- Local row r of a block computes row `row` of batch b of the whole array's result, when the block's proj row,
    scores and features are those of batch b: the logits, the row maximum, the weights and both sums agree term
    by term. -/
theorem blkAligned_eq (b : Fin 8)
    (p : (⟨3, ![1, 512, 2048]⟩ : Shape).Idx → EReal) (s : (⟨3, ![1, 1, 2048]⟩ : Shape).Idx → EReal)
    (g : (⟨3, ![1, 2048, 128]⟩ : Shape).Idx → EReal) (r : Fin 512) (row : Fin 2048)
    (hp : ∀ j : Fin 2048, p (ix3 (0 : Fin 1) r j) = pj (ix3 b row j))
    (hs : ∀ j : Fin 2048, s (ix3 (0 : Fin 1) (0 : Fin 1) j) = sc (ix3 b j (0 : Fin 1)))
    (hg : ∀ (j : Fin 2048) (f : Fin 128), g (ix3 (0 : Fin 1) j f) = ft (ix3 b j f)) (f : Fin 128) :
    blkAligned p s g r f = alignedPost sc ft pj (ix3 b row f) := by
  have hl : ∀ j : Fin 2048, blkLogit p s r j = logit sc pj b row j := fun j => by
    unfold blkLogit logit; rw [hp, hs]
  have ht : blkTop p s r = rowTop sc pj b row := by
    unfold blkTop rowTop
    rw [show (fun j : Fin 2048 => blkLogit p s r j) = fun j => logit sc pj b row j from funext hl]
  have he : ∀ j : Fin 2048, blkE p s r j = ew sc pj b row j := fun j => by
    unfold blkE ew; rw [hl, ht]
  unfold blkAligned alignedPost den
  show (∑ j : Fin 2048, blkE p s r j * g (ix3 (0 : Fin 1) j f)) * Ideal.div oneF (∑ j : Fin 2048, blkE p s r j)
    = (∑ j : Fin 2048, ew sc pj b row j * ft (ix3 b j f)) * Ideal.div oneF (∑ j : Fin 2048, ew sc pj b row j)
  simp only [he, hg]

end Mathematics

variable (m : (ℓ : Loc nD τ sig) → Buf (Elt Ideal) ℓ)

/-! ## The input blocks and the output blocks, read where the windows put them -/

section Blocks

/-- The three argument arrays and the first result, as functions of their indices. -/
abbrev scoreArr (c : Dev nD) : IScore → EReal := m ((c.tc : Thread nD τ).loc main_arg0)
abbrev featArr (c : Dev nD) : IFeat → EReal := m ((c.tc : Thread nD τ).loc main_arg1)
abbrev projArr (c : Dev nD) : IProj → EReal := m ((c.tc : Thread nD τ).loc main_arg2)
abbrev alignedArr (c : Dev nD) : IFeat → EReal := alignedPost (scoreArr m c) (featArr m c) (projArr m c)

/-- The three input blocks at a grid point. -/
abbrev pblk (c : Dev nD) (t : Fin cfg0.N) : Vec Ideal S1x512x2048 .f32 := iblk m c 0 t
abbrev sblk (c : Dev nD) (t : Fin cfg0.N) : Vec Ideal S1x1x2048 .f32 := iblk m c 1 t
abbrev fblk (c : Dev nD) (t : Fin cfg0.N) : Vec Ideal S1x2048x128 .f32 := iblk m c 2 t

/-- The proj block's row r is row 512 q + r of batch b. -/
theorem pblk_apply (c : Dev nD) (t : Fin cfg0.N) (b : Fin 8) (hb : b.val = win0_3.index t (0 : Fin 3))
    (r : Fin 512) (row : Fin 2048) (hrow : row.val = 512 * win0_3.index t (1 : Fin 3) + r.val) (j : Fin 2048) :
    pblk m c t (ix3 (0 : Fin 1) r j) = projArr m c (ix3 b row j) := by
  obtain ⟨e0, e1, e2, -⟩ := idx_facts t
  show V m c main_arg2 (((cfg0.win 0).blk t).view.emb (ix3 (0 : Fin 1) r j)) = _
  rw [V_main_arg2]
  refine congrArg (m ((c.tc : Thread nD τ).loc main_arg2)) ?_
  funext a; apply Fin.ext
  match a with
  | ⟨0, _⟩ => show win0_0.index t (0 : Fin 3) * 1 + 1 * (0 : Fin 1).val = b.val; rw [e0, hb]; simp
  | ⟨1, _⟩ => show win0_0.index t (1 : Fin 3) * 512 + 1 * r.val = row.val; rw [e1, hrow]; omega
  | ⟨2, _⟩ => show win0_0.index t (2 : Fin 3) * 2048 + 1 * j.val = j.val; rw [e2]; omega

/-- The [8, 1, 2048] score array the region finds is the score argument with its last two axes exchanged: both
    reshapes keep the row-major position 2048 b + j. -/
theorem score_row (c : Dev nD) (b : Fin 8) (j : Fin 2048) :
    V m c main_v1 (ix3 b (0 : Fin 1) j) = scoreArr m c (ix3 b j (0 : Fin 1)) := by
  have e : (V m c main_v1 : S8x1x2048.Idx → EReal)
      = shapeCast S8x1x2048 (shapeCast S8x2048 (m ((c.tc : Thread nD τ).loc main_arg0)) shapeCasts_S8x2048x1_S8x2048)
          shapeCasts_S8x2048_S8x1x2048 := by
    show StableHlo.after hostOps0 (fun b => m (c, b)) (Proc.devRef .tc main_v1) = _
    after_results
    rfl
  rw [e]
  refine (shapeCast_apply _ shapeCasts_S8x2048_S8x1x2048 (ix3 b (0 : Fin 1) j) (ix2 b j) ?_).trans ?_
  · rw [Shape.rowMajor_val_two, Shape.rowMajor_val_three]
    show b.val * 2048 + j.val = (b.val * 1 + (0 : Fin 1).val) * 2048 + j.val
    simp
  · refine shapeCast_apply _ shapeCasts_S8x2048x1_S8x2048 (ix2 b j) (ix3 b j (0 : Fin 1)) ?_
    rw [Shape.rowMajor_val_two, Shape.rowMajor_val_three]
    show (b.val * 2048 + j.val) * 1 + (0 : Fin 1).val = b.val * 2048 + j.val
    simp

/-- The score block is batch b's scores. -/
theorem sblk_apply (c : Dev nD) (t : Fin cfg0.N) (b : Fin 8) (hb : b.val = win0_3.index t (0 : Fin 3)) (j : Fin 2048) :
    sblk m c t (ix3 (0 : Fin 1) (0 : Fin 1) j) = scoreArr m c (ix3 b j (0 : Fin 1)) := by
  obtain ⟨-, -, -, e0, e1, e2, -⟩ := idx_facts t
  show V m c main_v1 (((cfg0.win 1).blk t).view.emb (ix3 (0 : Fin 1) (0 : Fin 1) j)) = _
  refine Eq.trans (congrArg (V m c main_v1) ?_) (score_row m c b j)
  funext a; apply Fin.ext
  match a with
  | ⟨0, _⟩ => show win0_1.index t (0 : Fin 3) * 1 + 1 * (0 : Fin 1).val = b.val; rw [e0, hb]; simp
  | ⟨1, _⟩ => show win0_1.index t (1 : Fin 3) * 1 + 1 * (0 : Fin 1).val = (0 : Fin 1).val; rw [e1]; simp
  | ⟨2, _⟩ => show win0_1.index t (2 : Fin 3) * 2048 + 1 * j.val = j.val; rw [e2]; omega

/-- The feature block is batch b's features. -/
theorem fblk_apply (c : Dev nD) (t : Fin cfg0.N) (b : Fin 8) (hb : b.val = win0_3.index t (0 : Fin 3))
    (j : Fin 2048) (f : Fin 128) :
    fblk m c t (ix3 (0 : Fin 1) j f) = featArr m c (ix3 b j f) := by
  obtain ⟨-, -, -, -, -, -, e0, e1, e2, -⟩ := idx_facts t
  show V m c main_arg1 (((cfg0.win 2).blk t).view.emb (ix3 (0 : Fin 1) j f)) = _
  rw [V_main_arg1]
  refine congrArg (m ((c.tc : Thread nD τ).loc main_arg1)) ?_
  funext a; apply Fin.ext
  match a with
  | ⟨0, _⟩ => show win0_2.index t (0 : Fin 3) * 1 + 1 * (0 : Fin 1).val = b.val; rw [e0, hb]; simp
  | ⟨1, _⟩ => show win0_2.index t (1 : Fin 3) * 2048 + 1 * j.val = j.val; rw [e1]; omega
  | ⟨2, _⟩ => show win0_2.index t (2 : Fin 3) * 128 + 1 * f.val = f.val; rw [e2]; omega

/-- The rows loaded a second time are rows [512 q, 512 q + 512) of batch b's features. -/
theorem ownRows_apply (c : Dev nD) (t : Fin cfg0.N) (b : Fin 8) (hb : b.val = win0_3.index t (0 : Fin 3))
    (r : Fin 512) (row : Fin 2048) (hrow : row.val = 512 * win0_3.index t (1 : Fin 3) + r.val) (f : Fin 128) :
    ownRows (grid0.coords t) (fblk m c t) (ix3 (0 : Fin 1) r f) = featArr m c (ix3 b row f) := by
  have eoff : k0_off1 (grid0.coords t) = ![0, 512 * win0_3.index t (1 : Fin 3), 0] := (idx_facts t).2.2.2.2.2.2.2.2.2.2.2.2.2.2.2
  show fblk m c t ((Rect.unit (s := S1x2048x128) (k0_off1 (grid0.coords t)) S1x512x128.size (k0_off1_inb (grid0.coords t))).emb
    (ix3 (0 : Fin 1) r f)) = _
  refine Eq.trans (congrArg (fblk m c t) ?_) (fblk_apply m c t b hb row f)
  funext a; apply Fin.ext
  match a with
  | ⟨0, _⟩ => show k0_off1 (grid0.coords t) (0 : Fin 3) + 1 * (0 : Fin 1).val = (0 : Fin 1).val; rw [eoff]; simp
  | ⟨1, _⟩ => show k0_off1 (grid0.coords t) (1 : Fin 3) + 1 * r.val = row.val; rw [eoff, hrow]; show 512 * _ + 1 * r.val = _; omega
  | ⟨2, _⟩ => show k0_off1 (grid0.coords t) (2 : Fin 3) + 1 * f.val = f.val; rw [eoff]; simp

/-- So the block's local row r of aligned is row 512 q + r of batch b of the whole result. -/
theorem aligned_at (c : Dev nD) (t : Fin cfg0.N) (b : Fin 8) (hb : b.val = win0_3.index t (0 : Fin 3))
    (r : Fin 512) (row : Fin 2048) (hrow : row.val = 512 * win0_3.index t (1 : Fin 3) + r.val) (f : Fin 128) :
    blkAligned (pblk m c t) (sblk m c t) (fblk m c t) r f = alignedArr m c (ix3 b row f) :=
  blkAligned_eq (scoreArr m c) (featArr m c) (projArr m c) b (pblk m c t) (sblk m c t) (fblk m c t) r row
    (fun j => pblk_apply m c t b hb r row hrow j) (fun j => sblk_apply m c t b hb j)
    (fun j f => fblk_apply m c t b hb j f) f

/-- Entry (0, r, f) of point t's block of the first output is entry (b, 512 q + r, f) of the array. -/
theorem emb_alignedBlk (t : Fin cfg0.N) (b : Fin 8) (hb : b.val = win0_3.index t (0 : Fin 3))
    (r : Fin 512) (row : Fin 2048) (hrow : row.val = 512 * win0_3.index t (1 : Fin 3) + r.val) (f : Fin 128) :
    ((cfg0.win 3).blk t).view.emb (ix3 (0 : Fin 1) r f) = (ix3 b row f : S8x2048x128.Idx) := by
  have e2 : win0_3.index t (2 : Fin 3) = 0 := (idx_facts t).2.2.2.2.2.2.2.2.2.2.2.2.2.2.1
  funext a; apply Fin.ext
  match a with
  | ⟨0, _⟩ => show win0_3.index t (0 : Fin 3) * 1 + 1 * (0 : Fin 1).val = b.val; rw [hb]; simp
  | ⟨1, _⟩ => show win0_3.index t (1 : Fin 3) * 512 + 1 * r.val = row.val; rw [hrow]; omega
  | ⟨2, _⟩ => show win0_3.index t (2 : Fin 3) * 128 + 1 * f.val = f.val; rw [e2]; omega

/-- Entry (0, r, k) of point t's block of the second output is entry (b, 512 q + r, k) of the array. -/
theorem emb_packedBlk (t : Fin cfg0.N) (b : Fin 8) (hb : b.val = win0_3.index t (0 : Fin 3))
    (r : Fin 512) (row : Fin 2048) (hrow : row.val = 512 * win0_3.index t (1 : Fin 3) + r.val) (k : Fin 3) :
    ((cfg0.win 4).blk t).view.emb (ix3 (0 : Fin 1) r k) = (ix3 b row k : S8x2048x3.Idx) := by
  obtain ⟨-, -, -, -, -, -, -, -, -, e0, e1, e2, -⟩ := idx_facts t
  funext a; apply Fin.ext
  match a with
  | ⟨0, _⟩ => show win0_4.index t (0 : Fin 3) * 1 + 1 * (0 : Fin 1).val = b.val; rw [e0, hb]; simp
  | ⟨1, _⟩ => show win0_4.index t (1 : Fin 3) * 512 + 1 * r.val = row.val; rw [e1, hrow]; omega
  | ⟨2, _⟩ => show win0_4.index t (2 : Fin 3) * 3 + 1 * k.val = k.val; rw [e2]; omega

end Blocks

/-! ## What each point writes back, and the two arrays after the region -/

section Region

/-- What point t writes back to the first output is its block of the whole result. -/
theorem flushed_aligned (c : Dev nD) (t : Fin cfg0.N) :
    (dats m 0 c).flushed 3 t = ((cfg0.win 3).blk t).view.read (Elt Ideal) (alignedArr m c) := by
  obtain ⟨-, -, -, -, -, -, -, -, -, -, -, -, hb8, hq4, -⟩ := idx_facts t
  show (cfg0.win 3).cut (grid0.coords t) ((dats m 0 c).after 3 t) = _
  rw [after0_3]
  refine funext ?_
  show ∀ y : S1x512x128.Idx, (outsAt0 m c t).1 y = alignedArr m c (((cfg0.win 3).blk t).view.emb y)
  intro y
  obtain ⟨r, f, rfl⟩ : ∃ (r : Fin 512) (f : Fin 128), y = ix3 (0 : Fin 1) r f :=
    ⟨y 1, y 2, funext fun a => match a with | ⟨0, _⟩ => Fin.ext (by have h : (y 0).val < 1 := (y 0).isLt; show (y 0).val = 0; omega) | ⟨1, _⟩ => rfl | ⟨2, _⟩ => rfl⟩
  have hr : r.val < 512 := r.isLt
  obtain ⟨b, hb⟩ : ∃ b : Fin 8, b.val = win0_3.index t (0 : Fin 3) := ⟨⟨_, hb8⟩, rfl⟩
  obtain ⟨row, hrow⟩ : ∃ row : Fin 2048, row.val = 512 * win0_3.index t (1 : Fin 3) + r.val := ⟨⟨_, by omega⟩, rfl⟩
  rw [emb_alignedBlk t b hb r row hrow f]
  unfold outsAt0
  dsimp only
  refine (congrFun (alignedBlock_eq (F := Ideal) c (grid0.coords t) (ms0_0 t) (hs0_0 t) (ms0_1 t) (hs0_1 t) (ms0_2 t) (hs0_2 t)
    (ms0_3 t) (hs0_3 t) (ms0_4 t) (hs0_4 t) (pblk m c t) (sblk m c t) (fblk m c t)) (ix3 (0 : Fin 1) r f)).trans ?_
  refine (KernelPay.pay5_apply (pblk m c t) (sblk m c t) (fblk m c t) r f).trans ?_
  exact aligned_at m c t b hb r row hrow f

/-- What point t writes back to the second output is its block of the three per-row sums of the whole arrays:
    column 0 from the rows of features loaded a second time, column 1 from the block's aligned rows, column 2 from
    both. -/
theorem flushed_packed (c : Dev nD) (t : Fin cfg0.N) :
    (dats m 0 c).flushed 4 t
      = ((cfg0.win 4).blk t).view.read (Elt Ideal) (packed (featArr m c) (alignedArr m c)) := by
  obtain ⟨-, -, -, -, -, -, -, -, -, -, -, -, hb8, hq4, -⟩ := idx_facts t
  show (cfg0.win 4).cut (grid0.coords t) ((dats m 0 c).after 4 t) = _
  rw [after0_4]
  refine funext ?_
  show ∀ y : S1x512x3.Idx, (outsAt0 m c t).2 y
    = packed (featArr m c) (alignedArr m c) (((cfg0.win 4).blk t).view.emb y)
  intro y
  obtain ⟨r, k, rfl⟩ : ∃ (r : Fin 512) (k : Fin 3), y = ix3 (0 : Fin 1) r k :=
    ⟨y 1, y 2, funext fun a => match a with | ⟨0, _⟩ => Fin.ext (by have h : (y 0).val < 1 := (y 0).isLt; show (y 0).val = 0; omega) | ⟨1, _⟩ => rfl | ⟨2, _⟩ => rfl⟩
  have hr : r.val < 512 := r.isLt
  obtain ⟨b, hb⟩ : ∃ b : Fin 8, b.val = win0_3.index t (0 : Fin 3) := ⟨⟨_, hb8⟩, rfl⟩
  obtain ⟨row, hrow⟩ : ∃ row : Fin 2048, row.val = 512 * win0_3.index t (1 : Fin 3) + r.val := ⟨⟨_, by omega⟩, rfl⟩
  rw [emb_packedBlk t b hb r row hrow k]
  unfold outsAt0
  dsimp only
  refine (congrFun (packedBlock_eq (F := Ideal) c (grid0.coords t) (ms0_0 t) (hs0_0 t) (ms0_1 t) (hs0_1 t) (ms0_2 t) (hs0_2 t)
    (ms0_3 t) (hs0_3 t) (ms0_4 t) (hs0_4 t) (pblk m c t) (sblk m c t) (fblk m c t)) (ix3 (0 : Fin 1) r k)).trans ?_
  match k with
  | ⟨0, _⟩ =>
    refine (three_col0 _ _ _ r).trans ?_
    refine (KernelPay.pay1_apply (ownRows (grid0.coords t) (fblk m c t)) r).trans ?_
    show _ = rowDot (featArr m c) (featArr m c) b row
    unfold rowDot
    exact Finset.sum_congr rfl fun f _ => by rw [ownRows_apply m c t b hb r row hrow f]
  | ⟨1, _⟩ =>
    refine (three_col1 _ _ _ r).trans ?_
    refine (KernelPay.pay2_apply (pblk m c t) (sblk m c t) (fblk m c t) r).trans ?_
    show _ = rowDot (alignedArr m c) (alignedArr m c) b row
    unfold rowDot
    exact Finset.sum_congr rfl fun f _ => by rw [aligned_at m c t b hb r row hrow f]
  | ⟨2, _⟩ =>
    refine (three_col2 _ _ _ r).trans ?_
    refine (KernelPay.pay3_apply (pblk m c t) (sblk m c t) (fblk m c t) (ownRows (grid0.coords t) (fblk m c t)) r).trans ?_
    show _ = rowDot (featArr m c) (alignedArr m c) b row
    unfold rowDot
    exact Finset.sum_congr rfl fun f _ => by
      rw [ownRows_apply m c t b hb r row hrow f, aligned_at m c t b hb r row hrow f]

end Region

theorem final3 (c : Dev nD) :
    (dats m 0 c).arrAt 3 cfg0.N
      = alignedPost (m ((c.tc : Thread nD τ).loc main_arg0)) (m ((c.tc : Thread nD τ).loc main_arg1)) (m ((c.tc : Thread nD τ).loc main_arg2)) :=
  (dats m 0 c).arrAt_eq_of_cover 3 (alignedArr m c) (fun t _ => flushed_aligned m c t) cover_aligned

theorem final4 (c : Dev nD) :
    (dats m 0 c).arrAt 4 cfg0.N
      = packed (m ((c.tc : Thread nD τ).loc main_arg1))
          (alignedPost (m ((c.tc : Thread nD τ).loc main_arg0)) (m ((c.tc : Thread nD τ).loc main_arg1)) (m ((c.tc : Thread nD τ).loc main_arg2))) :=
  (dats m 0 c).arrAt_eq_of_cover 4 (packed (featArr m c) (alignedArr m c)) (fun t _ => flushed_packed m c t) cover_packed

end Cert.KernelRegion
end
-- ==== Proof.KernelTail.lean ====
/-
  What the host operations after the kernel's region make of the packed per-row sums R : [8, 2048, 3].

  Column k of R, cut out and viewed as [8, 2048], is the per-row quantity number k.  Five slices of it shifted by
  0 … 4 rows, each of 2044 columns, added left to right, give at (b, n) the sum of rows n … n + 4: the five-row window
  sum.  The loss is then pointwise: the window sum of column 2 divided by the product of the roots of the window sums
  of columns 0 and 1, each root clamped below by ε; one minus that; the total over the 8 · 2044 windows from a zero
  initial value; divided by the count 16352.  That is the mean of 1 - cos with cos read off the packed sums.
-/
import proofs.«407050_j39771397161407_3_alg».proof.Proof.Gen.KernelIdeal.Frame
import proofs.«407050_j39771397161407_3_alg».proof.Proof.Spec
import Idealize.ShloMosaic.Lib.Pipeline.Value

noncomputable section

namespace Cert.KernelTail
open Idealize.ShloMosaic Idealize.ShloMosaic.TcCoe Idealize.ShloMosaic.ValueIdx Idealize.SL.Sem Cert.Spec Cert.KernelIdeal Cert.KernelIdeal.Gen

variable (m : (ℓ : Loc nD τ sig) → Buf (Elt Ideal) ℓ)

/-! The host operations after the region, read as mathematics.  The region's second output `R` packs three per-row
    sums along a last axis of extent 3.  The tail cuts out each column, forms for every window start `n < 2044` the sum
    of the column's rows `n, …, n + 4` (five shifted copies added left to right), divides the window sum of column 2 by
    the product of the clamped roots of the window sums of columns 0 and 1, subtracts from one, adds up all `8 · 2044`
    entries from zero and divides by the count. -/

/-- Column `k` of the packed sums as an [8, 2048] array: the last axis cut at `k`, its unit axis dropped. -/
def colArr (R : (⟨S8x2048x3, .f32⟩ : BufTy).Contents (Elt Ideal)) (k : Nat) (hs : S8x2048x3.Slices ![0, 0, k] S8x2048x1) :
    (⟨S8x2048, .f32⟩ : BufTy).Contents (Elt Ideal) :=
  fun i => shapeCast S8x2048 (extractStridedSlice S8x2048x1 ![0, 0, k] R hs) shapeCasts_S8x2048x1_S8x2048 i

/-- The five-row window sums of an [8, 2048] array as an [8, 2044] array: the copies shifted by 0 … 4 added left to right. -/
def winArr (x : (⟨S8x2048, .f32⟩ : BufTy).Contents (Elt Ideal)) : (⟨S8x2044, .f32⟩ : BufTy).Contents (Elt Ideal) :=
  addf (F := Ideal) (s := S8x2044) (φ := .f32) (addf (F := Ideal) (s := S8x2044) (φ := .f32) (addf (F := Ideal) (s := S8x2044) (φ := .f32)
      (addf (F := Ideal) (s := S8x2044) (φ := .f32) (extractStridedSlice S8x2044 ![0, 0] x slices_S8x2048_S8x2044_0_0)
        (extractStridedSlice S8x2044 ![0, 1] x slices_S8x2048_S8x2044_0_1))
      (extractStridedSlice S8x2044 ![0, 2] x slices_S8x2048_S8x2044_0_2)) (extractStridedSlice S8x2044 ![0, 3] x slices_S8x2048_S8x2044_0_3))
      (extractStridedSlice S8x2044 ![0, 4] x slices_S8x2048_S8x2044_0_4)

/-- A scalar constant spread over the [8, 2044] grid. -/
def spread (w : BitVec 32) : (⟨S8x2044, .f32⟩ : BufTy).Contents (Elt Ideal) :=
  broadcastInDim S8x2044 ![] bcast_S_S8x2044 (constant (F := Ideal) S_ .f32 w)

/-- The cosine at every window: column 2's window sum over the product of the clamped roots of columns 0's and 1's. -/
def cosArr (R : (⟨S8x2048x3, .f32⟩ : BufTy).Contents (Elt Ideal)) : (⟨S8x2044, .f32⟩ : BufTy).Contents (Elt Ideal) :=
  Host.divf (F := Ideal) (s := S8x2044) (φ := .f32) (winArr (colArr R 2 slices_S8x2048x3_S8x2048x1_0_0_2))
    (mulf (F := Ideal) (s := S8x2044) (φ := .f32)
      (maximumf (F := Ideal) (s := S8x2044) (φ := .f32) (Host.sqrt (F := Ideal) (s := S8x2044) (φ := .f32) (winArr (colArr R 0 slices_S8x2048x3_S8x2048x1_0_0_0)))
        (spread 0x2B8CBCCC#32))
      (maximumf (F := Ideal) (s := S8x2044) (φ := .f32) (Host.sqrt (F := Ideal) (s := S8x2044) (φ := .f32) (winArr (colArr R 1 slices_S8x2048x3_S8x2048x1_0_0_1)))
        (spread 0x2B8CBCCC#32)))

/-- The whole tail: one minus the cosine, summed over the grid from zero, divided by the count. -/
def tailArr (R : (⟨S8x2048x3, .f32⟩ : BufTy).Contents (Elt Ideal)) : (⟨S_, .f32⟩ : BufTy).Contents (Elt Ideal) :=
  Host.divf (F := Ideal) (s := S_) (φ := .f32)
    (Host.reduceAdd (F := Ideal) (s := S8x2044) (φ := .f32) (subf (F := Ideal) (s := S8x2044) (φ := .f32) (spread 0x3F800000#32) (cosArr R))
      (constant (F := Ideal) S_ .f32 0x00000000#32) reducesTo_S8x2044_S_d0_1 h_S_)
    (constant (F := Ideal) S_ .f32 0x467F8000#32)

/-- Column `k` of the packed sums read at row `(b, s)`: cutting the last axis at `k` and dropping the unit axis leaves `R[b, s, k]`. -/
theorem col_apply (R : (⟨S8x2048x3, .f32⟩ : BufTy).Contents (Elt Ideal)) (k : Nat) (hk : k < 3)
    (hs : S8x2048x3.Slices ![0, 0, k] S8x2048x1) (b : Fin 8) (s : Fin 2048) :
    shapeCast S8x2048 (extractStridedSlice S8x2048x1 ![0, 0, k] R hs) shapeCasts_S8x2048x1_S8x2048 (ix2 b s)
      = R (ix3 b s (⟨k, hk⟩ : Fin 3)) := by
  refine (shapeCast_apply _ shapeCasts_S8x2048x1_S8x2048 (ix2 b s) (ix3 b s (0 : Fin 1)) ?_).trans ?_
  · rw [Shape.rowMajor_val_three, Shape.rowMajor_val_two]
    show (b.val * 2048 + s.val) * 1 + 0 = b.val * 2048 + s.val
    omega
  · exact extractStridedSlice_apply _ R hs (ix3 b s (0 : Fin 1)) (ix3 b s (⟨k, hk⟩ : Fin 3)) (fun a => match a with
      | ⟨0, _⟩ => by show b.val = 0 + b.val; omega
      | ⟨1, _⟩ => by show s.val = 0 + s.val; omega
      | ⟨2, _⟩ => by show k = k + 0; omega)

/-- The columns `[k, k + 2044)` of an [8, 2048] array read at `(b, n)`: row `n + k` of the window starting at `n`. -/
theorem shift_apply (x : (⟨S8x2048, .f32⟩ : BufTy).Contents (Elt Ideal)) (k : Nat) (hk : k < 5)
    (hs : S8x2048.Slices ![0, k] S8x2044) (b : Fin 8) (n : Fin 2044) :
    extractStridedSlice S8x2044 ![0, k] x hs (ix2 b n) = x (ix2 b (wrow n (⟨k, hk⟩ : Fin 5))) :=
  extractStridedSlice_apply _ x hs (ix2 b n) (ix2 b (wrow n (⟨k, hk⟩ : Fin 5))) (fun a => match a with
    | ⟨0, _⟩ => by show b.val = 0 + b.val; omega
    | ⟨1, _⟩ => by show n.val + k = k + n.val; omega)

/-- The five shifted copies added left to right, read at `(b, n)`: the window sum of the array's rows. -/
theorem win_apply (x : (⟨S8x2048, .f32⟩ : BufTy).Contents (Elt Ideal))
    (h0 : S8x2048.Slices ![0, 0] S8x2044) (h1 : S8x2048.Slices ![0, 1] S8x2044) (h2 : S8x2048.Slices ![0, 2] S8x2044)
    (h3 : S8x2048.Slices ![0, 3] S8x2044) (h4 : S8x2048.Slices ![0, 4] S8x2044) (b : Fin 8) (n : Fin 2044) :
    addf (F := Ideal) (s := S8x2044) (φ := .f32) (addf (F := Ideal) (s := S8x2044) (φ := .f32) (addf (F := Ideal) (s := S8x2044) (φ := .f32)
      (addf (F := Ideal) (s := S8x2044) (φ := .f32) (extractStridedSlice S8x2044 ![0, 0] x h0) (extractStridedSlice S8x2044 ![0, 1] x h1))
      (extractStridedSlice S8x2044 ![0, 2] x h2)) (extractStridedSlice S8x2044 ![0, 3] x h3))
      (extractStridedSlice S8x2044 ![0, 4] x h4) (ix2 b n)
      = win5 (fun b s => x (ix2 b s)) b n := by
  show extractStridedSlice S8x2044 ![0, 0] x h0 (ix2 b n) + extractStridedSlice S8x2044 ![0, 1] x h1 (ix2 b n)
      + extractStridedSlice S8x2044 ![0, 2] x h2 (ix2 b n) + extractStridedSlice S8x2044 ![0, 3] x h3 (ix2 b n)
      + extractStridedSlice S8x2044 ![0, 4] x h4 (ix2 b n) = _
  rw [shift_apply x 0 (by omega) h0, shift_apply x 1 (by omega) h1, shift_apply x 2 (by omega) h2,
    shift_apply x 3 (by omega) h3, shift_apply x 4 (by omega) h4]
  rfl

/-- Column `k` as an array, at `(b, s)`. -/
theorem colArr_apply (R : (⟨S8x2048x3, .f32⟩ : BufTy).Contents (Elt Ideal)) (k : Nat) (hk : k < 3)
    (hs : S8x2048x3.Slices ![0, 0, k] S8x2048x1) (b : Fin 8) (s : Fin 2048) :
    colArr R k hs (ix2 b s) = R (ix3 b s (⟨k, hk⟩ : Fin 3)) := col_apply R k hk hs b s

/-- The window sums of column `k`, at `(b, n)`: the five-row sum of `R[b, ·, k]` starting at `n`. -/
theorem winCol_apply (R : (⟨S8x2048x3, .f32⟩ : BufTy).Contents (Elt Ideal)) (k : Nat) (hk : k < 3)
    (hs : S8x2048x3.Slices ![0, 0, k] S8x2048x1) (b : Fin 8) (n : Fin 2044) :
    winArr (colArr R k hs) (ix2 b n) = win5 (fun b s => R (ix3 b s (⟨k, hk⟩ : Fin 3))) b n := by
  refine (win_apply (colArr R k hs) _ _ _ _ _ b n).trans ?_
  simp only [win5, colArr_apply R k hk hs]

/-- The cosine array at `(b, n)` is the cosine read off the packed sums. -/
theorem cosArr_apply (R : (⟨S8x2048x3, .f32⟩ : BufTy).Contents (Elt Ideal)) (b : Fin 8) (n : Fin 2044) :
    cosArr R (ix2 b n) = cosPacked R b n := by
  have e0 := winCol_apply R 0 (by omega) slices_S8x2048x3_S8x2048x1_0_0_0 b n
  have e1 := winCol_apply R 1 (by omega) slices_S8x2048x3_S8x2048x1_0_0_1 b n
  have e2 := winCol_apply R 2 (by omega) slices_S8x2048x3_S8x2048x1_0_0_2 b n
  show Ideal.div (winArr (colArr R 2 slices_S8x2048x3_S8x2048x1_0_0_2) (ix2 b n))
      (max (Ideal.sqrt (winArr (colArr R 0 slices_S8x2048x3_S8x2048x1_0_0_0) (ix2 b n))) epsF
        * max (Ideal.sqrt (winArr (colArr R 1 slices_S8x2048x3_S8x2048x1_0_0_1) (ix2 b n))) epsF) = _
  rw [e0, e1, e2]
  rfl

/-- The tail's scalar is the mean over the windows of one minus the cosine. -/
theorem tailArr_apply (R : (⟨S8x2048x3, .f32⟩ : BufTy).Contents (Elt Ideal)) (i : S_.Idx) :
    tailArr R i = meanLoss (cosPacked R) := by
  have hsum : Host.reduceAdd (F := Ideal) (s := S8x2044) (φ := .f32)
      (subf (F := Ideal) (s := S8x2044) (φ := .f32) (spread 0x3F800000#32) (cosArr R))
      (constant (F := Ideal) S_ .f32 0x00000000#32) reducesTo_S8x2044_S_d0_1 h_S_ i
        = ∑ y : IWin, (oneF - cosPacked R (y 0) (y 1)) := by
    refine (Ideal.hostReduceAdd_total reducesTo_S8x2044_S_d0_1 (fun b => b.elim0) _ _ i).trans ?_
    refine (congrArg (· + _) Ideal.ofBits_zero_f32).trans ((zero_add _).trans ?_)
    refine Finset.sum_congr rfl (fun y _ => ?_)
    obtain ⟨b, n, rfl⟩ : ∃ (b : Fin 8) (n : Fin 2044), y = ix2 b n := ⟨y 0, y 1, eq_ix2 y⟩
    exact congrArg (oneF - ·) (cosArr_apply R b n)
  exact congrArg (fun t => Ideal.div t cntF) hsum

theorem tail_loss (c : Dev nD) :
    Pipeline.afterTail₀ cfgs (dats m) 0 (V0 m) [hostOps1] c main_v47
      = fun _ => meanLoss (cosPacked ((dats m 0 c).arrAt 4 cfg0.N)) := by
  unfold Pipeline.afterTail₀
  simp only [List.flatten_cons, List.flatten_nil, List.append_nil]
  after_results_simp
  funext i
  have hR := Pipeline.withArrays_arr spec0 launch0.win.arr_inj c (V0 m c) (fun w => (dats m 0 c).arrAt w cfg0.N) 4
  exact (congrArg (fun R => tailArr R i) hR).trans (tailArr_apply _ i)

end Cert.KernelTail
end
-- ==== Proof.Claims.lean ====
/-
  The five conjuncts, assembled.

  The kernel's run ends with its first result at the region's output array for aligned and its second at what the
  host operations after the region make of the packed per-row sums; the reference's run ends at its own two terms.
  Both first results are the softmax-weighted combination of the feature rows (normalised after the contraction on
  one side, before it on the other: equal once every entry is a real number, which the precondition gives), and both
  second results are the mean of 1 - cos over the windows, with cos in its one-division and its factor-by-factor
  arrangement.
-/
import proofs.«407050_j39771397161407_3_alg».proof.Defs
import proofs.«407050_j39771397161407_3_alg».proof.Proof.Gen.Kernel.Frame
import proofs.«407050_j39771397161407_3_alg».proof.Proof.Gen.KernelIdeal.Frame
import proofs.«407050_j39771397161407_3_alg».proof.Proof.Gen.ReferenceIdeal.Run
import proofs.«407050_j39771397161407_3_alg».proof.Proof.Gen.ReferenceIdeal.Read
import proofs.«407050_j39771397161407_3_alg».proof.Proof.Spec
import proofs.«407050_j39771397161407_3_alg».proof.Proof.AlgebraAligned
import proofs.«407050_j39771397161407_3_alg».proof.Proof.AlgebraCos
import proofs.«407050_j39771397161407_3_alg».proof.Proof.Finite
import proofs.«407050_j39771397161407_3_alg».proof.Proof.RefAligned
import proofs.«407050_j39771397161407_3_alg».proof.Proof.RefLoss
import proofs.«407050_j39771397161407_3_alg».proof.Proof.KernelRegion
import proofs.«407050_j39771397161407_3_alg».proof.Proof.KernelTail

noncomputable section

namespace Cert.Proof.Claims

open Idealize.ShloMosaic Idealize.ShloMosaic.TcCoe Idealize.ShloMosaic.ValueIdx Idealize.SL.Sem Cert.Spec

/-! ## Two small facts about the specification -/

/-- Reading cos off the packed per-row sums is cos in its one-division arrangement: column 0 holds feature·feature,
    column 1 aligned·aligned, column 2 feature·aligned. -/
theorem cosPacked_packed (ft A : IFeat → EReal) : cosPacked (packed ft A) = cosOnce ft A := by
  funext b n
  unfold cosPacked cosOnce
  have h0 : (fun (b : Fin 8) (s : Fin 2048) => packed ft A (ix3 b s (0 : Fin 3))) = rowDot ft ft := by
    funext b s
    show (if (0 : ℕ) = 0 then rowDot ft ft b s else if (0 : ℕ) = 1 then rowDot A A b s else rowDot ft A b s) = _
    rw [if_pos rfl]
  have h1 : (fun (b : Fin 8) (s : Fin 2048) => packed ft A (ix3 b s (1 : Fin 3))) = rowDot A A := by
    funext b s
    show (if (1 : ℕ) = 0 then rowDot ft ft b s else if (1 : ℕ) = 1 then rowDot A A b s else rowDot ft A b s) = _
    rw [if_neg (by decide), if_pos rfl]
  have h2 : (fun (b : Fin 8) (s : Fin 2048) => packed ft A (ix3 b s (2 : Fin 3))) = rowDot ft A := by
    funext b s
    show (if (2 : ℕ) = 0 then rowDot ft ft b s else if (2 : ℕ) = 1 then rowDot A A b s else rowDot ft A b s) = _
    rw [if_neg (by decide), if_neg (by decide)]
  rw [h0, h1, h2]

/-! ## The kernel's run, both results named -/

section KernelRun
open Cert.KernelIdeal Cert.KernelIdeal.Gen

/-- Every weakly fair execution of the idealized kernel terminates with the first result at the region's output
    array for aligned, the second at the host tail's value, and the arguments as launched. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2_0) = (dats m 0 c).arrAt 3 cfg0.N
      ∧ r.2.mem ((c.tc : Thread nD τ).loc main_v47) = Pipeline.afterTail₀ cfgs (dats m) 0 (V0 m) [hostOps1] c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 3,
      (h c).2 main_v47 (Pipeline.mem_restRefs_of main_v47 (by decide) (by decide)),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c)))⟩) (run_main m ρ)

end KernelRun

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨_, _, kernel_run m ρ, ?_⟩
  refine (θ_run Cert.ReferenceIdeal.defs _ _).mono (fun _ h c => ?_) (Cert.ReferenceIdeal.Value.run (F := Ideal) m' ρ')
  obtain ⟨hsc, hft, hpj⟩ := Cert.Finite.real_of_pre _ _ _ (hpre c)
  have hA := Cert.Algebra.alignedPost_eq_pre _ _ _ hsc hft hpj
  refine ⟨?_, ?_, (h c).2.2⟩
  · -- the first result: normalised before the contraction = scaled after it
    rw [(h c).1, Cert.ReferenceIdeal.Read.val_main_v15_eq, (hagree c).1, (hagree c).2.1, (hagree c).2.2,
      Cert.RefValue.ref_aligned, Cert.KernelRegion.final3, hA]
  · -- the second result: the same mean of 1 - cos, cos in its two arrangements
    rw [(h c).2.1, Cert.ReferenceIdeal.Read.val_main_v54_eq, (hagree c).1, (hagree c).2.1, (hagree c).2.2,
      Cert.RefValue.ref_loss, Cert.RefValue.ref_aligned, Cert.KernelTail.tail_loss, Cert.KernelRegion.final4,
      cosPacked_packed, hA]
    have hcos : cosOnce (m ((c.tc : Thread _ _).loc Cert.KernelIdeal.main_arg1))
          (alignedPre (m ((c.tc : Thread _ _).loc Cert.KernelIdeal.main_arg0)) (m ((c.tc : Thread _ _).loc Cert.KernelIdeal.main_arg1))
            (m ((c.tc : Thread _ _).loc Cert.KernelIdeal.main_arg2)))
        = cosEach (m ((c.tc : Thread _ _).loc Cert.KernelIdeal.main_arg1))
          (alignedPre (m ((c.tc : Thread _ _).loc Cert.KernelIdeal.main_arg0)) (m ((c.tc : Thread _ _).loc Cert.KernelIdeal.main_arg1))
            (m ((c.tc : Thread _ _).loc Cert.KernelIdeal.main_arg2))) :=
      funext fun b => funext fun n =>
        Cert.Algebra.cosOnce_eq_each _ _ hft (Cert.Algebra.alignedPre_real _ _ _ hsc hft hpj) b n
    rw [hcos]
    rfl

end Cert.Proof.Claims

end
-- ==== Proof.lean ====
/-
  The kernel computes, per batch b and row i, softmax over j of proj[b, i, j] · score[b, j] contracted with the feature
  rows, keeping the row normalisation until after the contraction; and a loss, the mean over windows of five
  consecutive rows of one minus the cosine similarity between the window of features and the window of aligned rows,
  from three per-row sums it packs beside the first result.  The reference normalises the weights first, gathers the
  five-row windows explicitly, flattens each to 640 numbers and normalises each factor before multiplying.  Over the
  extended reals the two agree once every input entry is a real number, which is what the precondition says: the row
  sums of exponentials are then positive reals and the clamped norms are positive reals, so each division is a
  multiplication by a real reciprocal and the sums may be regrouped.  The pieces: the specification (Proof/Spec.lean),
  the two programs read against it (Proof/Ref*.lean, Proof/Kernel*.lean), the two laws (Proof/Algebra*.lean), the
  precondition decoded (Proof/Finite.lean), and their assembly (Proof/Claims.lean).
-/
import proofs.«407050_j39771397161407_3_alg».proof.Defs
import proofs.«407050_j39771397161407_3_alg».proof.Proof.Gen.Kernel
import proofs.«407050_j39771397161407_3_alg».proof.Proof.Gen.KernelIdeal
import proofs.«407050_j39771397161407_3_alg».proof.Proof.Gen.ReferenceIdeal
import proofs.«407050_j39771397161407_3_alg».proof.Proof.Gen.Pre_finite_inputs
import proofs.«407050_j39771397161407_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
